-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S100000x128 : Shape := ⟨2, ![100000, 128]⟩
abbrev S128x512 : Shape := ⟨2, ![128, 512]⟩
abbrev S32768x1 : Shape := ⟨2, ![32768, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S32768x1 : S_.BroadcastsInDim S32768x1 (![] : Fin 0 → Fin S32768x1.rank)
  reducesTo_S32768x1_S_d0_1 : S32768x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128x512 .f32) (main_arg6 : FVec F S32768x1 .f32) (main_arg7 : FVec F S1 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128x512 .f32 := Host.absf main_arg5
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S32768x1 .f32 := Host.absf main_arg6
  let main_cst_8 : FVec F S_ .f32 := constant S_ .f32 0x7F800000#32
  let main_v25 : FVec F S32768x1 .f32 := broadcastInDim S32768x1 ![] bcast_S_S32768x1 main_cst_8
  let main_v26 : IVec S32768x1 1 := cmpf .olt main_v24 main_v25
  let main_c_9 : IVec S_ 1 := constantI S_ 1 1#1
  let main_v27 : IVec S_ 1 := (fun x v => Host.reduce IntOp.andi x v reducesTo_S32768x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : IVec S2048x64 32) (main_arg1 : FVec F S100000x128 .f32) (main_arg2 : FVec F S128x512 .f32) (main_arg3 : FVec F S128x512 .f32) (main_arg4 : FVec F S128x512 .f32) (main_arg5 : FVec F S128x512 .f32) (main_arg6 : FVec F S32768x1 .f32) (main_arg7 : FVec F S1 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128x512 .f32 := Host.absf main_arg3
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128x512 .f32 := Host.absf main_arg4
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg5 main_arg6 main_arg7 main_v13 main_v16
-- ==== Kernel.lean ====
abbrev S2048x64 : Shape := ⟨2, ![2048, 64]⟩
abbrev S100000x128 : Shape := ⟨2, ![100000, 128]⟩
abbrev S128x512 : Shape := ⟨2, ![128, 512]⟩
abbrev S32768x1 : Shape := ⟨2, ![32768, 1]⟩
abbrev S1 : Shape := ⟨1, ![1]⟩
abbrev S_ : Shape := ⟨0, ![]⟩
abbrev S2048x64x1 : Shape := ⟨3, ![2048, 64, 1]⟩
abbrev S2048x64x128 : Shape := ⟨3, ![2048, 64, 128]⟩
abbrev S128x8x64 : Shape := ⟨3, ![128, 8, 64]⟩
abbrev S8x128x64 : Shape := ⟨3, ![8, 128, 64]⟩
abbrev S8x128x256 : Shape := ⟨3, ![8, 128, 256]⟩
abbrev S64x8x64 : Shape := ⟨3, ![64, 8, 64]⟩
abbrev S8x64x64 : Shape := ⟨3, ![8, 64, 64]⟩
abbrev S1x1 : Shape := ⟨2, ![1, 1]⟩
abbrev S2048x1 : Shape := ⟨2, ![2048, 1]⟩
abbrev S128x64x128 : Shape := ⟨3, ![128, 64, 128]⟩
abbrev S128x1 : Shape := ⟨2, ![128, 1]⟩
abbrev S8192x128 : Shape := ⟨2, ![8192, 128]⟩
abbrev S1x128x256 : Shape := ⟨3, ![1, 128, 256]⟩
abbrev S128x256 : Shape := ⟨2, ![128, 256]⟩
abbrev S8192x256 : Shape := ⟨2, ![8192, 256]⟩
abbrev S8192x64 : Shape := ⟨2, ![8192, 64]⟩
abbrev S128x64x64 : Shape := ⟨3, ![128, 64, 64]⟩
abbrev S128x64 : Shape := ⟨2, ![128, 64]⟩
abbrev S128x1x64 : Shape := ⟨3, ![128, 1, 64]⟩
abbrev S1x64x64 : Shape := ⟨3, ![1, 64, 64]⟩
abbrev S64x64 : Shape := ⟨2, ![64, 64]⟩
abbrev S64x128 : Shape := ⟨2, ![64, 128]⟩
abbrev S1x64x128 : Shape := ⟨3, ![1, 64, 128]⟩
abbrev S128 : Shape := ⟨1, ![128]⟩

abbrev nBuf : Space → Nat
  | .hbm => 35
  | .vmem => 7
  | .smem => 0
  | _ => 0

abbrev bufTy : (tb : Table) → Fin (tcTables nBuf tb) → BufTy
  | .hbm, ⟨0, _⟩ => ⟨S2048x64, .i32⟩
  | .hbm, ⟨1, _⟩ => ⟨S100000x128, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S32768x1, .f32⟩
  | .hbm, ⟨7, _⟩ => ⟨S1, .f32⟩
  | .hbm, ⟨8, _⟩ => ⟨S100000x128, .bf16⟩
  | .hbm, ⟨9, _⟩ => ⟨S_, .i32⟩
  | .hbm, ⟨10, _⟩ => ⟨S2048x64, .i32⟩
  | .hbm, ⟨11, _⟩ => ⟨S2048x64, .i1⟩
  | .hbm, ⟨12, _⟩ => ⟨S_, .i32⟩
  | .hbm, ⟨13, _⟩ => ⟨S2048x64, .i32⟩
  | .hbm, ⟨14, _⟩ => ⟨S2048x64, .i32⟩
  | .hbm, ⟨15, _⟩ => ⟨S2048x64, .i32⟩
  | .hbm, ⟨16, _⟩ => ⟨S2048x64x1, .i32⟩
  | .hbm, ⟨17, _⟩ => ⟨S2048x64x128, .bf16⟩
  | .hbm, ⟨18, _⟩ => ⟨S128x8x64, .f32⟩
  | .hbm, ⟨19, _⟩ => ⟨S8x128x64, .f32⟩
  | .hbm, ⟨20, _⟩ => ⟨S8x128x64, .bf16⟩
  | .hbm, ⟨21, _⟩ => ⟨S128x8x64, .f32⟩
  | .hbm, ⟨22, _⟩ => ⟨S8x128x64, .f32⟩
  | .hbm, ⟨23, _⟩ => ⟨S8x128x64, .bf16⟩
  | .hbm, ⟨24, _⟩ => ⟨S128x8x64, .f32⟩
  | .hbm, ⟨25, _⟩ => ⟨S8x128x64, .f32⟩
  | .hbm, ⟨26, _⟩ => ⟨S8x128x64, .bf16⟩
  | .hbm, ⟨27, _⟩ => ⟨S128x8x64, .f32⟩
  | .hbm, ⟨28, _⟩ => ⟨S8x128x64, .f32⟩
  | .hbm, ⟨29, _⟩ => ⟨S8x128x64, .bf16⟩
  | .hbm, ⟨30, _⟩ => ⟨S8x128x256, .bf16⟩
  | .hbm, ⟨31, _⟩ => ⟨S64x8x64, .f32⟩
  | .hbm, ⟨32, _⟩ => ⟨S8x64x64, .f32⟩
  | .hbm, ⟨33, _⟩ => ⟨S1x1, .f32⟩
  | .hbm, ⟨34, _⟩ => ⟨S2048x1, .f32⟩
  | .local _ .vmem, ⟨0, _⟩ => ⟨S128x64x128, .bf16⟩
  | .local _ .vmem, ⟨1, _⟩ => ⟨S128x64x128, .bf16⟩
  | .local _ .vmem, ⟨2, _⟩ => ⟨S8x128x256, .bf16⟩
  | .local _ .vmem, ⟨3, _⟩ => ⟨S8x64x64, .f32⟩
  | .local _ .vmem, ⟨4, _⟩ => ⟨S1x1, .f32⟩
  | .local _ .vmem, ⟨5, _⟩ => ⟨S128x1, .f32⟩
  | .local _ .vmem, ⟨6, _⟩ => ⟨S128x1, .f32⟩
  | _, _ => ⟨S2048x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_off1 (k0_t1 : Fin k0_t1_loop.trips) : Fin 3 → Nat :=
  let c2_i32 : BitVec 32 := 2#32
  let c0_i32 : BitVec 32 := 0#32
  let c1_i32 : BitVec 32 := 1#32
  let arg6 : BitVec 32 := Scf.iv c0_i32 c1_i32 k0_t1
  let v12 : BitVec 32 := Scalar.muli c2_i32 arg6
  let v15 : Index := Scalar.indexCast v12
  let c0_9 : Index := 0#32
  let c0_10 : Index := 0#32
  ![v15.toNat, 0, 0]
def k0_off2 (k0_t1 : Fin k0_t1_loop.trips) : Fin 3 → Nat :=
  let c2_i32_7 : BitVec 32 := 2#32
  let c0_i32 : BitVec 32 := 0#32
  let c1_i32 : BitVec 32 := 1#32
  let arg6 : BitVec 32 := Scf.iv c0_i32 c1_i32 k0_t1
  let v13 : BitVec 32 := Scalar.muli c2_i32_7 arg6
  let c1_i32_8 : BitVec 32 := 1#32
  let v14 : BitVec 32 := Scalar.addi v13 c1_i32_8
  let v42 : Index := Scalar.indexCast v14
  let c0_16 : Index := 0#32
  let c0_17 : Index := 0#32
  ![v42.toNat, 0, 0]
def k0_off3 (k0_t1 : Fin k0_t1_loop.trips) : Fin 3 → Nat :=
  let c2_i32 : BitVec 32 := 2#32
  let c0_i32 : BitVec 32 := 0#32
  let c1_i32 : BitVec 32 := 1#32
  let arg6 : BitVec 32 := Scf.iv c0_i32 c1_i32 k0_t1
  let v12 : BitVec 32 := Scalar.muli c2_i32 arg6
  let v74 : Index := Scalar.indexCast v12
  let c0_24 : Index := 0#32
  let c0_25 : Index := 0#32
  ![v74.toNat, 0, 0]
def k0_off4 (k0_t1 : Fin k0_t1_loop.trips) : Fin 3 → Nat :=
  let c2_i32_7 : BitVec 32 := 2#32
  let c0_i32 : BitVec 32 := 0#32
  let c1_i32 : BitVec 32 := 1#32
  let arg6 : BitVec 32 := Scf.iv c0_i32 c1_i32 k0_t1
  let v13 : BitVec 32 := Scalar.muli c2_i32_7 arg6
  let c1_i32_8 : BitVec 32 := 1#32
  let v14 : BitVec 32 := Scalar.addi v13 c1_i32_8
  let v77 : Index := Scalar.indexCast v14
  let c0_26 : Index := 0#32
  let c0_27 : Index := 0#32
  ![v77.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  bcast_S_S2048x64 : S_.BroadcastsInDim S2048x64 (![] : Fin 0 → Fin S2048x64.rank)
  bcast_S2048x64_S2048x64x1_0_1 : S2048x64.BroadcastsInDim S2048x64x1 (![0, 1] : Fin 2 → Fin S2048x64x1.rank)
  shapeCasts_S128x512_S128x8x64 : S128x512.ShapeCasts S128x8x64
  transposes_S128x8x64_S8x128x64_1_0_2 : S128x8x64.Transposes [1, 0, 2] S8x128x64
  concatenates_S8x128x64_S8x128x64_S8x128x64_S8x128x64_S8x128x256_d2 : Shape.Concatenates [S8x128x64, S8x128x64, S8x128x64, S8x128x64] S8x128x256 2
  shapeCasts_S32768x1_S64x8x64 : S32768x1.ShapeCasts S64x8x64
  transposes_S64x8x64_S8x64x64_1_0_2 : S64x8x64.Transposes [1, 0, 2] S8x64x64
  shapeCasts_S1_S1x1 : S1.ShapeCasts S1x1
  inb_S128x64x128_S128x64x128_0_0_0 : ∀ a, (![0, 0, 0] : Fin 3 → Nat) a + S128x64x128.size a ≤ S128x64x128.size a
  h_S128x64x128 : 0 < S128x64x128.numel
  shapeCasts_S128x64x128_S128x64x128 : S128x64x128.ShapeCasts S128x64x128
  shapeCasts_S128x64x128_S8192x128 : S128x64x128.ShapeCasts S8192x128
  h_S1x128x256 : 0 < S1x128x256.numel
  shapeCasts_S1x128x256_S128x256 : S1x128x256.ShapeCasts S128x256
  slices_S8192x256_o0_0_S8192x64 : S8192x256.Slices ![0, 0] S8192x64
  slices_S8192x256_o0_64_S8192x64 : S8192x256.Slices ![0, 64] S8192x64
  slices_S8192x256_o0_128_S8192x64 : S8192x256.Slices ![0, 128] S8192x64
  slices_S8192x256_o0_192_S8192x64 : S8192x256.Slices ![0, 192] S8192x64
  shapeCasts_S8192x64_S128x64x64 : S8192x64.ShapeCasts S128x64x64
  reduces_S128x64x64_S128x64 : S128x64x64.Reduces [1] S128x64
  shapeCasts_S128x64_S128x1x64 : S128x64.ShapeCasts S128x1x64
  broadcasts_S128x1x64_S128x64x64 : S128x1x64.Broadcasts S128x64x64
  concatenates_S128x64x64_S128x64x64_S128x64x128_d2 : Shape.Concatenates [S128x64x64, S128x64x64] S128x64x128 2
  h_S1x64x64 : 0 < S1x64x64.numel
  shapeCasts_S1x64x64_S64x64 : S1x64x64.ShapeCasts S64x64
  concatenates_S64x64_S64x64_S64x128_d1 : Shape.Concatenates [S64x64, S64x64] S64x128 1
  shapeCasts_S64x128_S1x64x128 : S64x128.ShapeCasts S1x64x128
  broadcasts_S1x64x128_S128x64x128 : S1x64x128.Broadcasts S128x64x128
  reduces_S128x64x128_S128x64 : S128x64x128.Reduces [2] S128x64
  reduces_S128x64_S128 : S128x64.Reduces [1] S128
  shapeCasts_S128_S128x1 : S128.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  gather_S100000x128_S2048x64x1_S2048x64x128_2_0_n_n_0_2_1128_wf : GatherDims.WF S100000x128 S2048x64x1 S2048x64x128 [2] [0] [] [0] [] 2 ![1, 128]
  dot_S8192x128_S128x256_S8192x256_1_0_0_1_n_n_wf : DotDims.WF S8192x128 S128x256 S8192x256 [1] [0] [0] [1] [] []
  dot_S128x64x64_S128x64x64_S128x64x64_2_2_1_1_0_0_wf : DotDims.WF S128x64x64 S128x64x64 S128x64x64 [2] [2] [1] [1] [0] [0]
  dot_S128x64x64_S128x64x64_S128x64x64_2_1_1_2_0_0_wf : DotDims.WF S128x64x64 S128x64x64 S128x64x64 [2] [1] [1] [2] [0] [0]
  hrank0 : 0 < grid0.rank
  k0_t1_ok : k0_t1_loop.OK
  k0_off1_inb : ∀ k0_t1 : Fin k0_t1_loop.trips, ∀ a, (k0_off1 k0_t1) a + S1x128x256.size a ≤ S8x128x256.size a
  k0_off2_inb : ∀ k0_t1 : Fin k0_t1_loop.trips, ∀ a, (k0_off2 k0_t1) a + S1x128x256.size a ≤ S8x128x256.size a
  k0_off3_inb : ∀ k0_t1 : Fin k0_t1_loop.trips, ∀ a, (k0_off3 k0_t1) a + S1x64x64.size a ≤ S8x64x64.size a
  k0_off4_inb : ∀ k0_t1 : Fin k0_t1_loop.trips, ∀ a, (k0_off4 k0_t1) a + S1x64x64.size a ≤ S8x64x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x128.size a ≤ S2048x64x128.size a
  hwx0_0 : ∀ i : grid0.Coords, EltTy.bits .bf16 = 32 ∨ (Rect.block (s := S2048x64x128) S128x64x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128x256.size a ≤ S8x128x256.size a
  hwx0_1 : ∀ i : grid0.Coords, EltTy.bits .bf16 = 32 ∨ (Rect.block (s := S8x128x256) S8x128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x64x64.size a ≤ S8x64x64.size a
  hwx0_2 : ∀ i : grid0.Coords, EltTy.bits .f32 = 32 ∨ (Rect.block (s := S8x64x64) S8x64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S2048x1.size a
  hwx0_4 : ∀ i : grid0.Coords, EltTy.bits .f32 = 32 ∨ (Rect.block (s := S2048x1) S128x1.size (cc0_transform_4 i) (hinb0_4 i)).WholeWords (EltTy.packing .f32)

variable [Facts₀]

def gather_S100000x128_S2048x64x1_S2048x64x128_2_0_n_n_0_2_1128 : GatherDims S100000x128 S2048x64x1 S2048x64x128 where
  offsetDims := [2]
  collapsedSliceDims := [0]
  operandBatchingDims := []
  startIndicesBatchingDims := []
  startIndexMap := [0]
  indexVectorDim := 2
  sliceSizes := ![1, 128]
  wf := gather_S100000x128_S2048x64x1_S2048x64x128_2_0_n_n_0_2_1128_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S128x64x64_S128x64x64_S128x64x64_2_2_1_1_0_0 : DotDims S128x64x64 S128x64x64 S128x64x64 where
  lhsContracting := [2]
  rhsContracting := [2]
  lhsNonContracting := [1]
  rhsNonContracting := [1]
  lhsBatch := [0]
  rhsBatch := [0]
  wf := dot_S128x64x64_S128x64x64_S128x64x64_2_2_1_1_0_0_wf
def dot_S128x64x64_S128x64x64_S128x64x64_2_1_1_2_0_0 : DotDims S128x64x64 S128x64x64 S128x64x64 where
  lhsContracting := [2]
  rhsContracting := [1]
  lhsNonContracting := [1]
  rhsNonContracting := [2]
  lhsBatch := [0]
  rhsBatch := [0]
  wf := dot_S128x64x64_S128x64x64_S128x64x64_2_1_1_2_0_0_wf

abbrev win0_0 : Pipeline.Window sig grid0 :=
  Pipeline.Window.ofSpec (Memref.whole main_v7) S128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S8x128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S8x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x64 : Shape := ⟨2, ![2048, 64]⟩
abbrev S100000x128 : Shape := ⟨2, ![100000, 128]⟩
abbrev S128x512 : Shape := ⟨2, ![128, 512]⟩
abbrev S32768x1 : Shape := ⟨2, ![32768, 1]⟩
abbrev S1 : Shape := ⟨1, ![1]⟩
abbrev S_ : Shape := ⟨0, ![]⟩
abbrev S2048x64x1 : Shape := ⟨3, ![2048, 64, 1]⟩
abbrev S2048x64x128 : Shape := ⟨3, ![2048, 64, 128]⟩
abbrev S2048x64x512 : Shape := ⟨3, ![2048, 64, 512]⟩
abbrev S2048x64x8x64 : Shape := ⟨4, ![2048, 64, 8, 64]⟩
abbrev S2048x8x64x64 : Shape := ⟨4, ![2048, 8, 64, 64]⟩
abbrev S2048x8x64 : Shape := ⟨3, ![2048, 8, 64]⟩
abbrev S2048x8x1x64 : Shape := ⟨4, ![2048, 8, 1, 64]⟩
abbrev S2048x32768 : Shape := ⟨2, ![2048, 32768]⟩
abbrev S2048x1 : Shape := ⟨2, ![2048, 1]⟩
abbrev S1x1 : Shape := ⟨2, ![1, 1]⟩

abbrev nBuf : Space → Nat
  | .hbm => 62
  | .vmem => 0
  | .smem => 0
  | _ => 0

abbrev bufTy : (tb : Table) → Fin (tcTables nBuf tb) → BufTy
  | .hbm, ⟨0, _⟩ => ⟨S2048x64, .i32⟩
  | .hbm, ⟨1, _⟩ => ⟨S100000x128, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S32768x1, .f32⟩
  | .hbm, ⟨7, _⟩ => ⟨S1, .f32⟩
  | .hbm, ⟨8, _⟩ => ⟨S_, .i32⟩
  | .hbm, ⟨9, _⟩ => ⟨S2048x64, .i32⟩
  | .hbm, ⟨10, _⟩ => ⟨S2048x64, .i1⟩
  | .hbm, ⟨11, _⟩ => ⟨S_, .i32⟩
  | .hbm, ⟨12, _⟩ => ⟨S2048x64, .i32⟩
  | .hbm, ⟨13, _⟩ => ⟨S2048x64, .i32⟩
  | .hbm, ⟨14, _⟩ => ⟨S2048x64, .i32⟩
  | .hbm, ⟨15, _⟩ => ⟨S2048x64x1, .i32⟩
  | .hbm, ⟨16, _⟩ => ⟨S2048x64x128, .f32⟩
  | .hbm, ⟨17, _⟩ => ⟨S2048x64x512, .f32⟩
  | .hbm, ⟨18, _⟩ => ⟨S2048x64x8x64, .f32⟩
  | .hbm, ⟨19, _⟩ => ⟨S2048x8x64x64, .f32⟩
  | .hbm, ⟨20, _⟩ => ⟨S2048x64x512, .f32⟩
  | .hbm, ⟨21, _⟩ => ⟨S2048x64x8x64, .f32⟩
  | .hbm, ⟨22, _⟩ => ⟨S2048x8x64x64, .f32⟩
  | .hbm, ⟨23, _⟩ => ⟨S2048x64x512, .f32⟩
  | .hbm, ⟨24, _⟩ => ⟨S2048x64x8x64, .f32⟩
  | .hbm, ⟨25, _⟩ => ⟨S2048x8x64x64, .f32⟩
  | .hbm, ⟨26, _⟩ => ⟨S2048x8x64x64, .f32⟩
  | .hbm, ⟨27, _⟩ => ⟨S_, .f32⟩
  | .hbm, ⟨28, _⟩ => ⟨S2048x8x64, .f32⟩
  | .hbm, ⟨29, _⟩ => ⟨S_, .f32⟩
  | .hbm, ⟨30, _⟩ => ⟨S2048x8x64, .f32⟩
  | .hbm, ⟨31, _⟩ => ⟨S2048x8x64, .f32⟩
  | .hbm, ⟨32, _⟩ => ⟨S2048x8x1x64, .f32⟩
  | .hbm, ⟨33, _⟩ => ⟨S2048x8x64x64, .f32⟩
  | .hbm, ⟨34, _⟩ => ⟨S2048x8x64x64, .f32⟩
  | .hbm, ⟨35, _⟩ => ⟨S2048x8x64x64, .f32⟩
  | .hbm, ⟨36, _⟩ => ⟨S_, .f32⟩
  | .hbm, ⟨37, _⟩ => ⟨S2048x8x64, .f32⟩
  | .hbm, ⟨38, _⟩ => ⟨S2048x8x1x64, .f32⟩
  | .hbm, ⟨39, _⟩ => ⟨S2048x8x64x64, .f32⟩
  | .hbm, ⟨40, _⟩ => ⟨S2048x8x64x64, .f32⟩
  | .hbm, ⟨41, _⟩ => ⟨S2048x8x64x64, .f32⟩
  | .hbm, ⟨42, _⟩ => ⟨S2048x64x8x64, .f32⟩
  | .hbm, ⟨43, _⟩ => ⟨S2048x64x512, .f32⟩
  | .hbm, ⟨44, _⟩ => ⟨S2048x64x512, .f32⟩
  | .hbm, ⟨45, _⟩ => ⟨S2048x64x512, .f32⟩
  | .hbm, ⟨46, _⟩ => ⟨S_, .f32⟩
  | .hbm, ⟨47, _⟩ => ⟨S2048x64x512, .f32⟩
  | .hbm, ⟨48, _⟩ => ⟨S2048x64x512, .f32⟩
  | .hbm, ⟨49, _⟩ => ⟨S2048x32768, .f32⟩
  | .hbm, ⟨50, _⟩ => ⟨S2048x1, .f32⟩
  | .hbm, ⟨51, _⟩ => ⟨S1x1, .f32⟩
  | .hbm, ⟨52, _⟩ => ⟨S2048x1, .f32⟩
  | .hbm, ⟨53, _⟩ => ⟨S2048x1, .f32⟩
  | .hbm, ⟨54, _⟩ => ⟨S2048x1, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | _, _ => ⟨S2048x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_cst : Ref sig .tc := ⟨.hbm, 46, rfl⟩
abbrev main_call0_v0 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_3 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]

class Facts₀ : Prop where
  bcast_S_S2048x64 : S_.BroadcastsInDim S2048x64 (![] : Fin 0 → Fin S2048x64.rank)
  bcast_S2048x64_S2048x64x1_0_1 : S2048x64.BroadcastsInDim S2048x64x1 (![0, 1] : Fin 2 → Fin S2048x64x1.rank)
  shapeCasts_S2048x64x512_S2048x64x8x64 : S2048x64x512.ShapeCasts S2048x64x8x64
  transposes_S2048x64x8x64_S2048x8x64x64_0_2_1_3 : S2048x64x8x64.Transposes [0, 2, 1, 3] S2048x8x64x64
  reducesTo_S2048x8x64x64_S2048x8x64_d2 : S2048x8x64x64.ReducesTo [2] S2048x8x64
  h_S_ : 0 < S_.numel
  bcast_S_S2048x8x64 : S_.BroadcastsInDim S2048x8x64 (![] : Fin 0 → Fin S2048x8x64.rank)
  bcast_S2048x8x64_S2048x8x1x64_0_1_3 : S2048x8x64.BroadcastsInDim S2048x8x1x64 (![0, 1, 3] : Fin 3 → Fin S2048x8x1x64.rank)
  bcast_S2048x8x1x64_S2048x8x64x64_0_1_2_3 : S2048x8x1x64.BroadcastsInDim S2048x8x64x64 (![0, 1, 2, 3] : Fin 4 → Fin S2048x8x64x64.rank)
  transposes_S2048x8x64x64_S2048x64x8x64_0_2_1_3 : S2048x8x64x64.Transposes [0, 2, 1, 3] S2048x64x8x64
  shapeCasts_S2048x64x8x64_S2048x64x512 : S2048x64x8x64.ShapeCasts S2048x64x512
  bcast_S_S2048x64x512 : S_.BroadcastsInDim S2048x64x512 (![] : Fin 0 → Fin S2048x64x512.rank)
  shapeCasts_S2048x64x512_S2048x32768 : S2048x64x512.ShapeCasts S2048x32768
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  bcast_S_S2048x1 : S_.BroadcastsInDim S2048x1 (![] : Fin 0 → Fin S2048x1.rank)
  gather_S100000x128_S2048x64x1_S2048x64x128_2_0_n_n_0_2_1128_wf : GatherDims.WF S100000x128 S2048x64x1 S2048x64x128 [2] [0] [] [0] [] 2 ![1, 128]
  dot_S2048x64x128_S128x512_S2048x64x512_2_0_01_1_n_n_wf : DotDims.WF S2048x64x128 S128x512 S2048x64x512 [2] [0] [0, 1] [1] [] []
  dot_S2048x8x64x64_S2048x8x64x64_S2048x8x64x64_3_3_2_2_01_01_wf : DotDims.WF S2048x8x64x64 S2048x8x64x64 S2048x8x64x64 [3] [3] [2] [2] [0, 1] [0, 1]
  dot_S2048x8x64x64_S2048x8x64x64_S2048x8x64x64_3_2_2_3_01_01_wf : DotDims.WF S2048x8x64x64 S2048x8x64x64 S2048x8x64x64 [3] [2] [2] [3] [0, 1] [0, 1]
  dot_S2048x32768_S32768x1_S2048x1_1_0_0_1_n_n_wf : DotDims.WF S2048x32768 S32768x1 S2048x1 [1] [0] [0] [1] [] []

variable [Facts₀]

def gather_S100000x128_S2048x64x1_S2048x64x128_2_0_n_n_0_2_1128 : GatherDims S100000x128 S2048x64x1 S2048x64x128 where
  offsetDims := [2]
  collapsedSliceDims := [0]
  operandBatchingDims := []
  startIndicesBatchingDims := []
  startIndexMap := [0]
  indexVectorDim := 2
  sliceSizes := ![1, 128]
  wf := gather_S100000x128_S2048x64x1_S2048x64x128_2_0_n_n_0_2_1128_wf
def dot_S2048x64x128_S128x512_S2048x64x512_2_0_01_1_n_n : DotDims S2048x64x128 S128x512 S2048x64x512 where
  lhsContracting := [2]
  rhsContracting := [0]
  lhsNonContracting := [0, 1]
  rhsNonContracting := [1]
  lhsBatch := []
  rhsBatch := []
  wf := dot_S2048x64x128_S128x512_S2048x64x512_2_0_01_1_n_n_wf
def dot_S2048x8x64x64_S2048x8x64x64_S2048x8x64x64_3_3_2_2_01_01 : DotDims S2048x8x64x64 S2048x8x64x64 S2048x8x64x64 where
  lhsContracting := [3]
  rhsContracting := [3]
  lhsNonContracting := [2]
  rhsNonContracting := [2]
  lhsBatch := [0, 1]
  rhsBatch := [0, 1]
  wf := dot_S2048x8x64x64_S2048x8x64x64_S2048x8x64x64_3_3_2_2_01_01_wf
def dot_S2048x8x64x64_S2048x8x64x64_S2048x8x64x64_3_2_2_3_01_01 : DotDims S2048x8x64x64 S2048x8x64x64 S2048x8x64x64 where
  lhsContracting := [3]
  rhsContracting := [2]
  lhsNonContracting := [2]
  rhsNonContracting := [3]
  lhsBatch := [0, 1]
  rhsBatch := [0, 1]
  wf := dot_S2048x8x64x64_S2048x8x64x64_S2048x8x64x64_3_2_2_3_01_01_wf
def dot_S2048x32768_S32768x1_S2048x1_1_0_0_1_n_n : DotDims S2048x32768 S32768x1 S2048x1 where
  lhsContracting := [1]
  rhsContracting := [0]
  lhsNonContracting := [0]
  rhsNonContracting := [1]
  lhsBatch := []
  rhsBatch := []
  wf := dot_S2048x32768_S32768x1_S2048x1_1_0_0_1_n_n_wf

class Facts : Prop extends Facts₀ where

variable [Facts]
-- ==== Proof.KIKit.lean ====
/-
  The launch side of the kernel's one region, stated once for every float instance: the contents of every
  TensorCore buffer when the region is entered (the host operations before it applied to the launch memory), the fact
  that none of those operations writes an argument array, each window's block at a grid point read off its array,
  that an input window's staging buffer holds that block at every point (fetched there or kept from an earlier point),
  and the passage from a frame run's post to "every argument array ends unchanged".
-/
import proofs.«404584_j62156766707848_3_alg».proof.Proof.Gen.KernelIdeal.Launch
import proofs.«404584_j62156766707848_3_alg».proof.Proof.Gen.KernelIdeal.Skeleton
import proofs.«404584_j62156766707848_3_alg».proof.Proof.Gen.KernelIdeal.Loops
import proofs.«404584_j62156766707848_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s TensorCore buffers when the region is entered: the launch memory after the 26 host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## From a frame run to the frame claim -/

/-- Every argument array is an unscoped buffer that no window stages, so a frame run leaves it at its region-entry
    contents, which are its launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The staging memrefs the body is called with -/

abbrev ms0_0 (t : Fin cfg0.N) : Memref sig .tc .vmem S128x64x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1 .f32 := win0_4.stage (cfg0.slots t 4)
abbrev hs0_4 (t : Fin cfg0.N) : (ms0_4 t).IsWhole := hstage0_4 ((cfg0.slots t 4).cast nbuf0_4)

end Cert.KernelIdeal.Hand

end
-- ==== Proof.KIRun.lean ====
/-
  The kernel body as one triple, on any whole staging memrefs. The body loads its embedding block, runs its
  four-trip loop over head pairs (each trip loads two heads' projection weights and two heads' output weights and adds
  that pair's contribution to the carried column), loads the bias, and stores the logistic of the sum into the output
  block. The four input buffers are handed back as they were; the output buffer ends with the pieces the run's one
  store wrote, which the run itself finds.
-/
import proofs.«404584_j62156766707848_3_alg».proof.Proof.KIKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's staging memref (last first), with the proof that from the
    inputs' buffers at given contents and the output's at anything the body runs to the continuation, the inputs'
    buffers unchanged and the output's holding those pieces written over what it held. -/
noncomputable def kernelRun (c : Dev nD) (i : grid0.Coords) (arg1 : Memref sig .tc .vmem S128x64x128 .bf16) (harg1 : arg1.IsWhole) (arg2 : Memref sig .tc .vmem S8x128x256 .bf16) (harg2 : arg2.IsWhole) (arg3 : Memref sig .tc .vmem S8x64x64 .f32) (harg3 : arg3.IsWhole) (arg4 : Memref sig .tc .vmem S1x1 .f32) (harg4 : arg4.IsWhole) (arg5 : Memref sig .tc .vmem S128x1 .f32) (harg5 : arg5.IsWhole)
    (x0 : Vec F S128x64x128 .bf16) (x1 : Vec F S8x128x256 .bf16) (x2 : Vec F S8x64x64 .f32) (x3 : Vec F S1x1 .f32) :
    { L : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L)) -∗ K ⟨⟩))
          ⊢ wp frame (wpE (defs₀ (F := F)) Variants.none c none) E (cc0__autoint_kernel i arg1 harg1 arg2 harg2 arg3 harg3 arg4 harg4 arg5 harg5) K } := by
  refine ⟨?_, fun E K => ?run⟩
  case run =>
    simp only [cc0__autoint_kernel_eq_skeleton]; unfold cc0__autoint_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Hand

end
-- ==== Proof.KIFrame.lean ====
/-
  The frame of the kernel's program, with the output named. What the body leaves in the output window's
  staging buffer at a grid point is the run's pieces read back (they tile the block, so nothing of the buffer's earlier
  contents shows through); the four input windows' buffers hold their blocks at every point; with that proof data the
  body obligation holds at every point, the launch theorem runs the whole program, and every argument array ends
  unchanged.
-/
import proofs.«404584_j62156766707848_3_alg».proof.Proof.KIRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's one piece is the whole [128, 1] block, so the pieces cover it. -/
theorem cover_out (c : Dev nD) (i : grid0.Coords) (arg1 : Memref sig .tc .vmem S128x64x128 .bf16) (harg1 : arg1.IsWhole) (arg2 : Memref sig .tc .vmem S8x128x256 .bf16) (harg2 : arg2.IsWhole) (arg3 : Memref sig .tc .vmem S8x64x64 .f32) (harg3 : arg3.IsWhole) (arg4 : Memref sig .tc .vmem S1x1 .f32) (harg4 : arg4.IsWhole) (arg5 : Memref sig .tc .vmem S128x1 .f32) (harg5 : arg5.IsWhole)
    (x0 : Vec F S128x64x128 .bf16) (x1 : Vec F S8x128x256 .bf16) (x2 : Vec F S8x64x64 .f32) (x3 : Vec F S1x1 .f32) (y : S128x1.Idx) :
    ∃ pc ∈ (kernelRun c i arg1 harg1 arg2 harg2 arg3 harg3 arg4 harg4 arg5 harg5 x0 x1 x2 x3).1, y ∈ pc.1.set :=
  View.cover_of_tiledL (kernelRun c i arg1 harg1 arg2 harg2 arg3 harg3 arg4 harg4 arg5 harg5 x0 x1 x2 x3).1 S128x1.size (by sl_kernel_rfl) y

/-- One staging buffer of the output window, through which its contents are stated (the choice does not matter). -/
abbrev VO : View sig .tc .vmem S128x1 .f32 := (Memref.whole cc0_stg4_0 : Memref sig .tc .vmem S128x1 .f32).view

/-- What the run leaves in the output's staging buffer: its pieces read back over anything. -/
def outBlk (c : Dev nD) (i : grid0.Coords) (arg1 : Memref sig .tc .vmem S128x64x128 .bf16) (harg1 : arg1.IsWhole) (arg2 : Memref sig .tc .vmem S8x128x256 .bf16) (harg2 : arg2.IsWhole) (arg3 : Memref sig .tc .vmem S8x64x64 .f32) (harg3 : arg3.IsWhole) (arg4 : Memref sig .tc .vmem S1x1 .f32) (harg4 : arg4.IsWhole) (arg5 : Memref sig .tc .vmem S128x1 .f32) (harg5 : arg5.IsWhole)
    (x0 : Vec F S128x64x128 .bf16) (x1 : Vec F S8x128x256 .bf16) (x2 : Vec F S8x64x64 .f32) (x3 : Vec F S1x1 .f32) : Vec F S128x1 .f32 :=
  VO.read (Elt F) (VO.writes (Elt F) VO.junk (kernelRun c i arg1 harg1 arg2 harg2 arg3 harg3 arg4 harg4 arg5 harg5 x0 x1 x2 x3).1)

/-- The output block after the body at point `t`: the run's contents at the point's memrefs and input blocks. -/
def outsAt (c : Dev nD) (t : Fin cfg0.N) : Vec F S128x1 .f32 :=
  outBlk c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t)

/-- The proof data of the one pipeline on core `c`: the arrays as the region finds them; after the body at point `t`
    each input's buffer at its block and the output's at `outsAt`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold outsAt
  unfold outBlk
  iintro ⟨HΦ, Ho, ⟨%d0, H0⟩, ⟨%d1, H1⟩, ⟨%d2, H2⟩, ⟨%d3, H3⟩, ⟨%d4, H4⟩⟩
  iapply ((kernelRun c (grid0.coords t) _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover_out c _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every weakly fair execution of the program terminates, and every final state has
    every array of the pipeline at what the proof data says and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its eight argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.KernelIdeal.Hand

end
-- ==== Proof.KIBlock.lean ====
/-
  The output block as a closed function of the four input blocks. One loop trip adds to the carried column the
  contribution of head pair `k`, computed from the embedding block, the two heads' weight slabs `2 k` and `2 k + 1`
  of the weight block and the same two slabs of the output-weight block; the loop is four such trips from the zero
  column; the block stored is the logistic of the result plus the bias. The run's own record of the loop (a recursion
  over trips whose step is the run's find) is opened here once and replaced by this closed form.
-/
import proofs.«404584_j62156766707848_3_alg».proof.Proof.KIFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Trip `k`'s two weight slabs of the weight block, and its two slabs of the output-weight block. -/
abbrev wA (x1 : Vec F S8x128x256 .bf16) (k : Fin k0_t1_loop.trips) : Vec F S1x128x256 .bf16 :=
  View.ld x1 (Rect.unit (s := S8x128x256) (k0_off1 k) S1x128x256.size (k0_off1_inb k))
abbrev wB (x1 : Vec F S8x128x256 .bf16) (k : Fin k0_t1_loop.trips) : Vec F S1x128x256 .bf16 :=
  View.ld x1 (Rect.unit (s := S8x128x256) (k0_off2 k) S1x128x256.size (k0_off2_inb k))
abbrev oA (x2 : Vec F S8x64x64 .f32) (k : Fin k0_t1_loop.trips) : Vec F S1x64x64 .f32 :=
  View.ld x2 (Rect.unit (s := S8x64x64) (k0_off3 k) S1x64x64.size (k0_off3_inb k))
abbrev oB (x2 : Vec F S8x64x64 .f32) (k : Fin k0_t1_loop.trips) : Vec F S1x64x64 .f32 :=
  View.ld x2 (Rect.unit (s := S8x64x64) (k0_off4 k) S1x64x64.size (k0_off4_inb k))

/-- One trip as a function of the carried column. -/
def tripFn (x0 : Vec F S128x64x128 .bf16) (x1 : Vec F S8x128x256 .bf16) (x2 : Vec F S8x64x64 .f32) (k : Fin k0_t1_loop.trips)
    (acc : FVec F S128x1 .f32) : FVec F S128x1 .f32 :=
  k0_pay3 acc (k0_pay6 (k0_pay1 x0) (wA x1 k)) (k0_pay7 (k0_pay1 x0) (wA x1 k)) (k0_pay9 (k0_pay1 x0) (wB x1 k)) (k0_pay10 (k0_pay1 x0) (wB x1 k))
    (k0_pay11 (k0_pay1 x0) (wB x1 k)) (k0_pay12 (k0_pay1 x0) (wB x1 k)) (constant S128x64x64 .f32 0x00000000#32) (oA x2 k) (oB x2 k)

theorem trips4 : k0_t1_loop.trips = 4 := by decide

/-- The four trips. -/
def k_0 : Fin k0_t1_loop.trips := ⟨0, by rw [trips4]; decide⟩
def k_1 : Fin k0_t1_loop.trips := ⟨1, by rw [trips4]; decide⟩
def k_2 : Fin k0_t1_loop.trips := ⟨2, by rw [trips4]; decide⟩
def k_3 : Fin k0_t1_loop.trips := ⟨3, by rw [trips4]; decide⟩

/-- The block the body stores: four trips from the zero column, the bias added, the logistic function applied. -/
def blockFn (x0 : Vec F S128x64x128 .bf16) (x1 : Vec F S8x128x256 .bf16) (x2 : Vec F S8x64x64 .f32) (x3 : Vec F S1x1 .f32) : Vec F S128x1 .f32 :=
  k0_pay4 (tripFn x0 x1 x2 k_3 (tripFn x0 x1 x2 k_2 (tripFn x0 x1 x2 k_1 (tripFn x0 x1 x2 k_0 k0_pay2)))) x3

/-- The run's trip step, at whole buffers holding `x1` and `x2`, is the closed trip. -/
theorem tripR_eq (𝒱 : Variants) (c : Dev nD) (bd : Option 𝒱.V) (i : grid0.Coords) (arg1 : Memref sig .tc .vmem S128x64x128 .bf16) (harg1 : arg1.IsWhole) (arg2 : Memref sig .tc .vmem S8x128x256 .bf16) (harg2 : arg2.IsWhole) (arg3 : Memref sig .tc .vmem S8x64x64 .f32) (harg3 : arg3.IsWhole) (arg4 : Memref sig .tc .vmem S1x1 .f32) (harg4 : arg4.IsWhole) (arg5 : Memref sig .tc .vmem S128x1 .f32) (harg5 : arg5.IsWhole)
    (x0 : Vec F S128x64x128 .bf16) (x1 : Vec F S8x128x256 .bf16) (x2 : Vec F S8x64x64 .f32) (k : Fin k0_t1_loop.trips) (acc : FVec F S128x1 .f32) :
    tripR_k0_t1 (F := F) 𝒱 c bd i arg1 harg1 arg2 harg2 arg3 harg3 arg4 harg4 arg5 harg5 x0 (harg2.unread x1) (harg3.unread x2) k acc = tripFn x0 x1 x2 k acc := by
  unfold tripR_k0_t1 trip_k0_t1
  dsimp only
  sl_unfold_run_names
  unfold tripFn
  simp only [View.readAt_eq_ld, harg2.read_unread, harg3.read_unread]

/-- The run's recursion over the trips, unrolled into the four closed trips. -/
theorem st_eq (𝒱 : Variants) (c : Dev nD) (bd : Option 𝒱.V) (i : grid0.Coords) (arg1 : Memref sig .tc .vmem S128x64x128 .bf16) (harg1 : arg1.IsWhole) (arg2 : Memref sig .tc .vmem S8x128x256 .bf16) (harg2 : arg2.IsWhole) (arg3 : Memref sig .tc .vmem S8x64x64 .f32) (harg3 : arg3.IsWhole) (arg4 : Memref sig .tc .vmem S1x1 .f32) (harg4 : arg4.IsWhole) (arg5 : Memref sig .tc .vmem S128x1 .f32) (harg5 : arg5.IsWhole)
    (x0 : Vec F S128x64x128 .bf16) (x1 : Vec F S8x128x256 .bf16) (x2 : Vec F S8x64x64 .f32) (init : FVec F S128x1 .f32) :
    st_k0_t1 (F := F) 𝒱 c bd i arg1 harg1 arg2 harg2 arg3 harg3 arg4 harg4 arg5 harg5 x0 (harg2.unread x1) (harg3.unread x2) init 4
      = tripFn x0 x1 x2 k_3 (tripFn x0 x1 x2 k_2 (tripFn x0 x1 x2 k_1 (tripFn x0 x1 x2 k_0 init))) := by
  have e3 := st_k0_t1_succ (F := F) 𝒱 c bd i arg1 harg1 arg2 harg2 arg3 harg3 arg4 harg4 arg5 harg5 x0 (harg2.unread x1) (harg3.unread x2) init k_3
  have e2 := st_k0_t1_succ (F := F) 𝒱 c bd i arg1 harg1 arg2 harg2 arg3 harg3 arg4 harg4 arg5 harg5 x0 (harg2.unread x1) (harg3.unread x2) init k_2
  have e1 := st_k0_t1_succ (F := F) 𝒱 c bd i arg1 harg1 arg2 harg2 arg3 harg3 arg4 harg4 arg5 harg5 x0 (harg2.unread x1) (harg3.unread x2) init k_1
  have e0 := st_k0_t1_succ (F := F) 𝒱 c bd i arg1 harg1 arg2 harg2 arg3 harg3 arg4 harg4 arg5 harg5 x0 (harg2.unread x1) (harg3.unread x2) init k_0
  have z := st_k0_t1_zero (F := F) 𝒱 c bd i arg1 harg1 arg2 harg2 arg3 harg3 arg4 harg4 arg5 harg5 x0 (harg2.unread x1) (harg3.unread x2) init
  simp only [tripR_eq] at e3 e2 e1 e0
  exact e3.trans (by rw [show (k_3 : Fin k0_t1_loop.trips).val = (k_2 : Fin k0_t1_loop.trips).val + 1 from rfl, e2,
    show (k_2 : Fin k0_t1_loop.trips).val = (k_1 : Fin k0_t1_loop.trips).val + 1 from rfl, e1,
    show (k_1 : Fin k0_t1_loop.trips).val = (k_0 : Fin k0_t1_loop.trips).val + 1 from rfl, e0,
    show (k_0 : Fin k0_t1_loop.trips).val = 0 from rfl, z])

theorem hz2 : (![0, 0] : Fin 2 → Nat) = fun _ => 0 := by funext a; fin_cases a <;> rfl
theorem hz3 : (![0, 0, 0] : Fin 3 → Nat) = fun _ => 0 := by funext a; fin_cases a <;> rfl

/-- What the run leaves in the output's staging buffer is the closed block. -/
theorem outBlk_eq (c : Dev nD) (i : grid0.Coords) (arg1 : Memref sig .tc .vmem S128x64x128 .bf16) (harg1 : arg1.IsWhole) (arg2 : Memref sig .tc .vmem S8x128x256 .bf16) (harg2 : arg2.IsWhole) (arg3 : Memref sig .tc .vmem S8x64x64 .f32) (harg3 : arg3.IsWhole) (arg4 : Memref sig .tc .vmem S1x1 .f32) (harg4 : arg4.IsWhole) (arg5 : Memref sig .tc .vmem S128x1 .f32) (harg5 : arg5.IsWhole)
    (x0 : Vec F S128x64x128 .bf16) (x1 : Vec F S8x128x256 .bf16) (x2 : Vec F S8x64x64 .f32) (x3 : Vec F S1x1 .f32) :
    outBlk c i arg1 harg1 arg2 harg2 arg3 harg3 arg4 harg4 arg5 harg5 x0 x1 x2 x3 = blockFn x0 x1 x2 x3 := by
  unfold outBlk
  rw [View.read_writes_eq_canon _ _ _ (cover_out c i arg1 harg1 arg2 harg2 arg3 harg3 arg4 harg4 arg5 harg5 x0 x1 x2 x3)]
  have hp : (kernelRun c i arg1 harg1 arg2 harg2 arg3 harg3 arg4 harg4 arg5 harg5 x0 x1 x2 x3).1
      = [⟨Rect.unit (s := S128x1) ![0, 0] S128x1.size inb_S128x1_S128x1_0_0,
          k0_pay4 (st_k0_t1 (F := F) Variants.none c none i arg1 harg1 arg2 harg2 arg3 harg3 arg4 harg4 arg5 harg5
              (View.readAt (Elt F) arg1.view (Rect.unit (s := S128x64x128) ![0, 0, 0] S128x64x128.size inb_S128x64x128_S128x64x128_0_0_0).toLoadRect (harg1.unread x0))
              (harg2.unread x1) (harg3.unread x2) k0_pay2 4)
            (View.readAt (Elt F) arg4.view (Rect.unit (s := S1x1) ![0, 0] S1x1.size inb_S1x1_S1x1_0_0).toLoadRect (harg4.unread x3))⟩] := by
    unfold kernelRun; rfl
  have h1 : View.readAt (Elt F) arg1.view (Rect.unit (s := S128x64x128) ![0, 0, 0] S128x64x128.size inb_S128x64x128_S128x64x128_0_0_0).toLoadRect (harg1.unread x0) = x0 := by
    rw [View.readAt_eq_ld, harg1.read_unread]; exact View.ld_unit_zero (S := S128x64x128) hz3 _ x0
  have h4 : View.readAt (Elt F) arg4.view (Rect.unit (s := S1x1) ![0, 0] S1x1.size inb_S1x1_S1x1_0_0).toLoadRect (harg4.unread x3) = x3 := by
    rw [View.readAt_eq_ld, harg4.read_unread]; exact View.ld_unit_zero (S := S1x1) hz2 _ x3
  rw [hp, View.canon_unit_zero (S := S128x1) hz2, h1, h4, st_eq]
  unfold blockFn
  rfl

end Cert.KernelIdeal.Hand

end
-- ==== Proof.Spec.lean ====
/-
  The function both programs compute, for ONE batch row, over the extended reals.

  A row is 64 feature embeddings `e f` of width 128. Four 128 × 512 weight matrices project each embedding to
  queries, keys, values and a residual; the 512 columns are 8 heads of 64 lanes (`col h p`). Per head the scores
  are the query–key inner products, the softmax is taken over the QUERY index (for each key `k`, over `q`), the
  attention output is the softmax-weighted sum of the values, the residual is added and the result clipped at zero.
  The 64 × 8 × 64 clipped values are paired with the 32768 output weights and summed, the bias added, and the
  logistic function applied.

  `yRef` takes that last sum over the flat index `f * 512 + h * 64 + p` in one go; `yKer` takes it head pair by
  head pair (four pairs, accumulated left to right from zero), within a pair over the feature and then over the
  128 lanes of the two heads side by side. The two are equal because a finite sum over the extended reals may be
  regrouped freely (addition there is commutative and associative, infinities included).
-/
import Idealize.ShloMosaic.PureOps.Ideal
import Mathlib.Algebra.BigOperators.Group.Finset.Basic
import Mathlib.Data.Fintype.BigOperators

noncomputable section

namespace Cert.Spec

open Idealize.ShloMosaic

variable (e : Fin 64 → Fin 128 → EReal) (Wq Wk Wv Wr : Fin 128 → Fin 512 → EReal) (ow : Fin 32768 → EReal) (ob : EReal)

/-- Column `h * 64 + p` of a projection: lane `p` of head `h`. -/
def col (h : Fin 8) (p : Fin 64) : Fin 512 := ⟨h.val * 64 + p.val, by omega⟩

/-- The flat position `f * 512 + h * 64 + p` of feature `f`, head `h`, lane `p` among the output weights. -/
def flat (f : Fin 64) (h : Fin 8) (p : Fin 64) : Fin 32768 := ⟨f.val * 512 + h.val * 64 + p.val, by omega⟩

/-- Entry `j` of feature `f`'s projection by `W`. -/
def proj (W : Fin 128 → Fin 512 → EReal) (f : Fin 64) (j : Fin 512) : EReal := ∑ d : Fin 128, e f d * W d j

/-- Head `h`'s score of query `q` against key `k`. -/
def scores (h : Fin 8) (q k : Fin 64) : EReal := ∑ p : Fin 64, proj e Wq q (col h p) * proj e Wk k (col h p)

/-- The value both programs start their running maximum from (the f32 pattern of minus infinity). -/
def negInf : EReal := Ideal.ofBits .f32 0xFF800000#32

/-- The largest score against key `k` over all queries. -/
def mx (h : Fin 8) (k : Fin 64) : EReal := (Finset.univ : Finset (Fin 64)).fold max negInf (fun q => scores e Wq Wk h q k)

/-- The shifted exponential of a score. -/
def pexp (h : Fin 8) (q k : Fin 64) : EReal := Ideal.exp (scores e Wq Wk h q k - mx e Wq Wk h k)

/-- The softmax denominator for key `k`: the sum over the queries. -/
def den (h : Fin 8) (k : Fin 64) : EReal := ∑ q : Fin 64, pexp e Wq Wk h q k

/-- The attention weight. -/
def att (h : Fin 8) (q k : Fin 64) : EReal := Ideal.div (pexp e Wq Wk h q k) (den e Wq Wk h k)

/-- The attention output at query `q`, lane `p`. -/
def av (h : Fin 8) (q p : Fin 64) : EReal := ∑ k : Fin 64, att e Wq Wk h q k * proj e Wv k (col h p)

/-- Attention output plus residual, clipped at zero. -/
def multi (f : Fin 64) (h : Fin 8) (p : Fin 64) : EReal := max (av e Wq Wk Wv h f p + proj e Wr f (col h p)) 0

/-- Lane `l` of head pair `k` belongs to head `2 k + l / 64`, -/
def headOf (k : Fin 4) (l : Fin 128) : Fin 8 := ⟨2 * k.val + l.val / 64, by omega⟩
/-- at that head's lane `l % 64`. -/
def laneOf (l : Fin 128) : Fin 64 := ⟨l.val % 64, by omega⟩

/-- Head pair `k`'s share of the final sum. -/
def contrib (k : Fin 4) : EReal :=
  ∑ f : Fin 64, ∑ l : Fin 128, multi e Wq Wk Wv Wr f (headOf k l) (laneOf l) * ow (flat f (headOf k l) (laneOf l))

/-- The row's result, accumulated pair by pair. -/
def yKer : EReal :=
  Ideal.logistic (((((0 + contrib e Wq Wk Wv Wr ow 0) + contrib e Wq Wk Wv Wr ow 1) + contrib e Wq Wk Wv Wr ow 2) + contrib e Wq Wk Wv Wr ow 3) + ob)

/-- The feature, head and lane of a flat position. -/
def fOf (j : Fin 32768) : Fin 64 := ⟨j.val / 512, by omega⟩
def hOf (j : Fin 32768) : Fin 8 := ⟨j.val % 512 / 64, by omega⟩
def pOf (j : Fin 32768) : Fin 64 := ⟨j.val % 64, by omega⟩

/-- The row's result, summed over the flat index at once. -/
def yRef : EReal :=
  Ideal.logistic ((∑ j : Fin 32768, multi e Wq Wk Wv Wr (fOf j) (hOf j) (pOf j) * ow j) + ob)

end Cert.Spec

end
-- ==== Proof.KDefs.lean ====
/-
  The two pure pipelines inside one loop trip of the idealized kernel, named so that they can be read at an index
  once and used for both heads of a pair: one head's attention (scores, softmax over the query axis, weighted sum of
  the values) from that head's query, key and value blocks; and the pair's tail (the two heads' outputs and residuals
  laid side by side along the lanes, added, clipped at zero, multiplied by the pair's output weights, summed over
  lanes and then over features, and added to the carried column).
-/
import proofs.«404584_j62156766707848_3_alg».proof.Proof.Gen.KernelIdeal.Skeleton
import Idealize.ShloMosaic.PureOps.Ideal
import Idealize.ShloMosaic.Lib.ValueIdx
import proofs.«404584_j62156766707848_3_alg».proof.Proof.Spec

noncomputable section

namespace Cert.KernelIdeal.KValue

open Cert.KernelIdeal Cert.KernelIdeal.Gen Idealize.ShloMosaic

/-- Scores of queries against keys from their lane-indexed blocks. -/
def scG (Q K : Fin 64 → Fin 64 → EReal) (q k : Fin 64) : EReal := ∑ p : Fin 64, Q q p * K k p

/-- The running maximum over the queries for key `k`, started from the f32 pattern of minus infinity. -/
def mxG (Q K : Fin 64 → Fin 64 → EReal) (k : Fin 64) : EReal :=
  (Finset.univ : Finset (Fin 64)).fold max (Ideal.ofBits .f32 0xFF800000#32) (fun q => scG Q K q k)

/-- Softmax over the query index, then the weighted sum of the values. -/
def avG (Q K V : Fin 64 → Fin 64 → EReal) (q p : Fin 64) : EReal :=
  ∑ k : Fin 64, Ideal.div (Ideal.exp (scG Q K q k - mxG Q K k)) (∑ q' : Fin 64, Ideal.exp (scG Q K q' k - mxG Q K k)) * V k p

/-- Two heads' 64-lane rows laid side by side: lane `l` of the pair is lane `l % 64` of the first head when
    `l < 64` and of the second otherwise. -/
def pairG (a b : Fin 64 → Fin 64 → EReal) (f : Fin 64) (l : Fin 128) : EReal :=
  if l.val < 64 then a f ⟨l.val % 64, Nat.mod_lt _ (by decide)⟩ else b f ⟨l.val % 64, Nat.mod_lt _ (by decide)⟩

/-- Column block `s` (0: query, 1: key, 2: value, 3: residual) of the per-head weight array, as a 128 × 512 matrix
    whose column `j` is lane `j % 64` of head `j / 64`. -/
def WsOf (s : Fin 4) (wall : FVec Ideal S8x128x256 .bf16) : Fin 128 → Fin 512 → EReal :=
  fun d j => wall (ValueIdx.ix3 (⟨j.val / 64, by omega⟩ : Fin 8) d (⟨64 * s.val + j.val % 64, by omega⟩ : Fin 256))

/-- The per-head output weights (head, feature, lane) by flat position `f * 512 + h * 64 + p`. -/
def owK (outw : FVec Ideal S8x64x64 .f32) : Fin 32768 → EReal :=
  fun j => outw (ValueIdx.ix3 (Cert.Spec.hOf j) (Cert.Spec.fOf j) (Cert.Spec.pOf j))

/-- One head's attention output from its query, key and value blocks (`c0` is the zero block the scores accumulate into). -/
def attnChain (c0 : FVec Ideal S128x64x64 .f32) (qh kh vh : FVec Ideal S128x64x64 .bf16) : FVec Ideal S128x64x64 .f32 :=
  have v57 : FVec Ideal S128x64x64 .f32 := matmul dot_S128x64x64_S128x64x64_S128x64x64_2_2_1_1_0_0 none qh kh c0
  have v58 : FVec Ideal S128x64 .f32 := multiReduction .maximumf [1] S128x64 v57 0xFF800000#32 reduces_S128x64x64_S128x64 (.inl rfl) rfl
  have v59 : FVec Ideal S128x1x64 .f32 := shapeCast S128x1x64 v58 shapeCasts_S128x64_S128x1x64
  have v60 : FVec Ideal S128x64x64 .f32 := broadcastTo S128x64x64 v59 broadcasts_S128x1x64_S128x64x64
  have v61 : FVec Ideal S128x64x64 .f32 := subf v57 v60
  have v62 : FVec Ideal S128x64x64 .f32 := exp v61
  have v63 : FVec Ideal S128x64 .f32 := multiReduction .add [1] S128x64 v62 0x00000000#32 reduces_S128x64x64_S128x64 (.inl rfl) rfl
  have v64 : FVec Ideal S128x1x64 .f32 := shapeCast S128x1x64 v63 shapeCasts_S128x64_S128x1x64
  have v65 : FVec Ideal S128x64x64 .f32 := broadcastTo S128x64x64 v64 broadcasts_S128x1x64_S128x64x64
  have v66 : FVec Ideal S128x64x64 .f32 := divf v62 v65
  have v67 : FVec Ideal S128x64x64 .bf16 := truncf .bf16 v66 bitsLt_bf16_f32
  have cst_22 : FVec Ideal S128x64x64 .f32 := constant S128x64x64 .f32 0x00000000#32
  matmul dot_S128x64x64_S128x64x64_S128x64x64_2_1_1_2_0_0 none v67 vh cst_22

/-- The pair's tail: from the carried column, the two heads' attention outputs and residuals, and the two heads'
    output-weight blocks, the new carried column. -/
def tailChain (acc : FVec Ideal S128x1 .f32) (av1 av2 r1 r2 : FVec Ideal S128x64x64 .f32) (o1 o2 : Vec Ideal S1x64x64 .f32) : FVec Ideal S128x1 .f32 :=
  have v69 : FVec Ideal S128x64x128 .f32 := concatenate S128x64x128 2 [⟨S128x64x64, av1⟩, ⟨S128x64x64, av2⟩] concatenates_S128x64x64_S128x64x64_S128x64x128_d2
  have v70 : FVec Ideal S128x64x128 .f32 := concatenate S128x64x128 2 [⟨S128x64x64, r1⟩, ⟨S128x64x64, r2⟩] concatenates_S128x64x64_S128x64x64_S128x64x128_d2
  have v71 : FVec Ideal S128x64x128 .f32 := addf v69 v70
  have cst_23 : Ideal .f32 := Scalar.ofBits .f32 0x00000000#32
  have v72 : FVec Ideal S128x64x128 .f32 := broadcast S128x64x128 cst_23
  have v73 : FVec Ideal S128x64x128 .f32 := maximumf v71 v72
  have v76 : FVec Ideal S64x64 .f32 := shapeCast S64x64 o1 shapeCasts_S1x64x64_S64x64
  have v79 : FVec Ideal S64x64 .f32 := shapeCast S64x64 o2 shapeCasts_S1x64x64_S64x64
  have v80 : FVec Ideal S64x128 .f32 := concatenate S64x128 1 [⟨S64x64, v76⟩, ⟨S64x64, v79⟩] concatenates_S64x64_S64x64_S64x128_d1
  have v81 : FVec Ideal S1x64x128 .f32 := shapeCast S1x64x128 v80 shapeCasts_S64x128_S1x64x128
  have v82 : FVec Ideal S128x64x128 .f32 := broadcastTo S128x64x128 v81 broadcasts_S1x64x128_S128x64x128
  have v83 : FVec Ideal S128x64x128 .f32 := mulf v73 v82
  have v84 : FVec Ideal S128x64 .f32 := multiReduction .add [2] S128x64 v83 0x00000000#32 reduces_S128x64x128_S128x64 (.inl rfl) rfl
  have v85 : FVec Ideal S128 .f32 := multiReduction .add [1] S128 v84 0x00000000#32 reduces_S128x64_S128 (.inl rfl) rfl
  have v86 : FVec Ideal S128x1 .f32 := shapeCast S128x1 v85 shapeCasts_S128_S128x1
  addf acc v86

/-- The trip's yield is the tail applied to the first head's attention and residual (computed when its weights were
    loaded) and the second head's attention, computed here from its query, key and value blocks. -/
theorem pay3_eq (acc : FVec Ideal S128x1 .f32) (v29 v41 : FVec Ideal S128x64x64 .f32) (v53 v54 v55 : FVec Ideal S128x64x64 .bf16) (v56 cst_19 : FVec Ideal S128x64x64 .f32) (v75 v78 : Vec Ideal S1x64x64 .f32) :
    k0_pay3 acc v29 v41 v53 v54 v55 v56 cst_19 v75 v78 = tailChain acc v41 (attnChain cst_19 v53 v54 v55) v29 v56 v75 v78 := rfl

/-- The first head's attention is the same pipeline applied to its own query, key and value blocks. -/
theorem pay7_eq (v2 : FVec Ideal S8192x128 .bf16) (w : Vec Ideal S1x128x256 .bf16) :
    k0_pay7 v2 w = attnChain (constant S128x64x64 .f32 0x00000000#32) (k0_pay9 v2 w) (k0_pay10 v2 w) (k0_pay11 v2 w) := rfl

/-- The first head's residual block is its fourth projection block. -/
theorem pay6_eq (v2 : FVec Ideal S8192x128 .bf16) (w : Vec Ideal S1x128x256 .bf16) : k0_pay6 v2 w = k0_pay12 v2 w := rfl

end Cert.KernelIdeal.KValue

end
-- ==== Proof.KProj.lean ====
/-
  One head's four projection blocks, read at an index.

  The embedding block `v0 : [128, 64, 128]` (row `r`, feature `f`, width `d`) is flattened to `[8192, 128]`, flat row
  `r * 64 + f`, and multiplied into the zero block by the head's weights `w : [1, 128, 256]` flattened to `[128, 256]`:
  entry `(r * 64 + f, c)` of the product is `∑ d, v0 r f d * w 0 d c`. The query, key, value and residual blocks are
  the columns `[64 s, 64 s + 64)` of the product for `s = 0, 1, 2, 3`, shaped back to `[128, 64, 64]` (flat row
  `r * 64 + f` back to row `r`, feature `f`); the format narrowing on the first three is the identity on the extended
  reals.
-/
import proofs.«404584_j62156766707848_3_alg».proof.Proof.KDefs
import Idealize.ShloMosaic.Lib.ValueIdx
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.ValueIdx

/-! ## The three reshapes and the column slice, at an index -/

/-- The flattened embedding block at flat row `r * 64 + f` is the block at row `r`, feature `f`: both sit at row-major
    position `(r * 64 + f) * 128 + d`. -/
theorem pay1_apply (v0 : FVec Ideal S128x64x128 .bf16) (r : Fin 128) (f : Fin 64) (d : Fin 128) :
    k0_pay1 v0 (ix2 (⟨r.val * 64 + f.val, by omega⟩ : Fin 8192) d) = v0 (ix3 r f d) := by
  unfold k0_pay1
  refine (shapeCast_apply _ shapeCasts_S128x64x128_S8192x128 _ (ix3 r f d) ?_).trans ?_
  · rw [Shape.rowMajor_val_three, Shape.rowMajor_val_two]
    show (r.val * 64 + f.val) * 128 + d.val = (r.val * 64 + f.val) * 128 + d.val
    rfl
  · exact congrFun (shapeCast_self v0 shapeCasts_S128x64x128_S128x64x128) (ix3 r f d)

/-- The head's weights with their unit leading axis dropped: row-major position `d * 256 + c` on both sides. -/
theorem wcast_apply (w : FVec Ideal S1x128x256 .bf16) (d : Fin 128) (c : Fin 256) :
    shapeCast S128x256 w shapeCasts_S1x128x256_S128x256 (ix2 d c) = w (ix3 (0 : Fin 1) d c) := by
  refine shapeCast_apply w shapeCasts_S1x128x256_S128x256 (ix2 d c) (ix3 (0 : Fin 1) d c) ?_
  rw [Shape.rowMajor_val_three, Shape.rowMajor_val_two]
  show (0 * 128 + d.val) * 256 + c.val = d.val * 256 + c.val
  omega

/-- A `[8192, 64]` block shaped to `[128, 64, 64]`: entry `(r, f, p)` is entry `(r * 64 + f, p)`, both at row-major
    position `(r * 64 + f) * 64 + p`. -/
theorem rows_apply {α : Type} (g : S8192x64.Idx → α) (r : Fin 128) (f p : Fin 64) :
    shapeCast S128x64x64 g shapeCasts_S8192x64_S128x64x64 (ix3 r f p) = g (ix2 (⟨r.val * 64 + f.val, by omega⟩ : Fin 8192) p) := by
  refine shapeCast_apply g shapeCasts_S8192x64_S128x64x64 (ix3 r f p) (ix2 (⟨r.val * 64 + f.val, by omega⟩ : Fin 8192) p) ?_
  rw [Shape.rowMajor_val_three, Shape.rowMajor_val_two]
  show (r.val * 64 + f.val) * 64 + p.val = (r.val * 64 + f.val) * 64 + p.val
  rfl

/-- The 64 columns from column `o` on of a `[8192, 256]` block: entry `(m, p)` is entry `(m, o + p)`. -/
theorem cols_apply {α : Type} (y : S8192x256.Idx → α) (o : Nat) (ho : o + 64 ≤ 256) (h : S8192x256.Slices ![0, o] S8192x64)
    (m : Fin 8192) (p : Fin 64) :
    extractStridedSlice S8192x64 ![0, o] y h (ix2 m p) = y (ix2 m (⟨o + p.val, by omega⟩ : Fin 256)) := by
  refine extractStridedSlice_apply ![0, o] y h (ix2 m p) (ix2 m (⟨o + p.val, by omega⟩ : Fin 256)) fun a => ?_
  match a with
  | ⟨0, _⟩ => show m.val = 0 + m.val; omega
  | ⟨1, _⟩ => show o + p.val = o + p.val; rfl

/-! ## The product at an index -/

/-- The left operand's row is the result's row. -/
theorem lhs_proj_0 (i : S8192x256.Idx) (q : dot_S8192x128_S128x256_S8192x256_1_0_0_1_n_n.contr.Idx) :
    (dot_S8192x128_S128x256_S8192x256_1_0_0_1_n_n.lhsIdx i q 0).val = (i 0).val := by
  unfold DotDims.lhsIdx
  rw [dif_neg (show ¬(0 : Fin S8192x128.rank) ∈ dot_S8192x128_S128x256_S8192x256_1_0_0_1_n_n.lhsBatch by decide), dif_pos (show (0 : Fin S8192x128.rank) ∈ dot_S8192x128_S128x256_S8192x256_1_0_0_1_n_n.lhsNonContracting by decide)]
  rfl
/-- The left operand's column is the contracted index. -/
theorem lhs_proj_1 (i : S8192x256.Idx) (q : dot_S8192x128_S128x256_S8192x256_1_0_0_1_n_n.contr.Idx) :
    (dot_S8192x128_S128x256_S8192x256_1_0_0_1_n_n.lhsIdx i q 1).val = (q ⟨0, by decide⟩).val :=
  dot_S8192x128_S128x256_S8192x256_1_0_0_1_n_n.lhsIdx_val_of_single rfl i q
/-- The right operand's row is the contracted index. -/
theorem rhs_proj_0 (i : S8192x256.Idx) (q : dot_S8192x128_S128x256_S8192x256_1_0_0_1_n_n.contr.Idx) :
    (dot_S8192x128_S128x256_S8192x256_1_0_0_1_n_n.rhsIdx i q 0).val = (q ⟨0, by decide⟩).val :=
  dot_S8192x128_S128x256_S8192x256_1_0_0_1_n_n.rhsIdx_val_of_single rfl i q
/-- The right operand's column is the result's column. -/
theorem rhs_proj_1 (i : S8192x256.Idx) (q : dot_S8192x128_S128x256_S8192x256_1_0_0_1_n_n.contr.Idx) :
    (dot_S8192x128_S128x256_S8192x256_1_0_0_1_n_n.rhsIdx i q 1).val = (i 1).val := by
  unfold DotDims.rhsIdx
  rw [dif_neg (show ¬(1 : Fin S128x256.rank) ∈ dot_S8192x128_S128x256_S8192x256_1_0_0_1_n_n.rhsBatch by decide), dif_pos (show (1 : Fin S128x256.rank) ∈ dot_S8192x128_S128x256_S8192x256_1_0_0_1_n_n.rhsNonContracting by decide)]
  rfl

/-- A product of a `[8192, 128]` by a `[128, 256]` block into the zero block: entry `(m, c)` is the sum over the width
    `d` of the left entry `(m, d)` times the right entry `(d, c)`. -/
theorem prod_apply (a : FVec Ideal S8192x128 .bf16) (b : FVec Ideal S128x256 .bf16) (m : Fin 8192) (c : Fin 256) :
    matmul dot_S8192x128_S128x256_S8192x256_1_0_0_1_n_n none a b (constant S8192x256 .f32 0x00000000#32) (ix2 m c)
      = ∑ d : Fin 128, a (ix2 m d) * b (ix2 d c) := by
  refine (Ideal.matmul_constant_zero_apply dot_S8192x128_S128x256_S8192x256_1_0_0_1_n_n none a b (ix2 m c)).trans ?_
  rw [← Equiv.sum_comp (contrEquiv1 dot_S8192x128_S128x256_S8192x256_1_0_0_1_n_n 128 rfl rfl).symm]
  refine Finset.sum_congr rfl fun k _ => ?_
  have hk := contrEquiv1_symm_val dot_S8192x128_S128x256_S8192x256_1_0_0_1_n_n 128 rfl rfl k
  have el : dot_S8192x128_S128x256_S8192x256_1_0_0_1_n_n.lhsIdx (ix2 m c) ((contrEquiv1 dot_S8192x128_S128x256_S8192x256_1_0_0_1_n_n 128 rfl rfl).symm k) = ix2 m k := funext fun x => Fin.ext (by
    match x with
    | ⟨0, _⟩ => exact lhs_proj_0 _ _
    | ⟨1, _⟩ => exact (lhs_proj_1 _ _).trans hk)
  have er : dot_S8192x128_S128x256_S8192x256_1_0_0_1_n_n.rhsIdx (ix2 m c) ((contrEquiv1 dot_S8192x128_S128x256_S8192x256_1_0_0_1_n_n 128 rfl rfl).symm k) = ix2 k c := funext fun x => Fin.ext (by
    match x with
    | ⟨0, _⟩ => exact (rhs_proj_0 _ _).trans hk
    | ⟨1, _⟩ => exact rhs_proj_1 _ _)
  rw [el, er]

/-- The head's product block: entry `(r * 64 + f, c)` is row `r`, feature `f`'s embedding against column `c` of the weights. -/
theorem pay8_apply (v0 : FVec Ideal S128x64x128 .bf16) (w : FVec Ideal S1x128x256 .bf16) (r : Fin 128) (f : Fin 64) (c : Fin 256) :
    k0_pay8 (F := Ideal) (k0_pay1 v0) w (ix2 (⟨r.val * 64 + f.val, by omega⟩ : Fin 8192) c) = ∑ d : Fin 128, v0 (ix3 r f d) * w (ix3 (0 : Fin 1) d c) := by
  unfold k0_pay8
  refine (prod_apply (k0_pay1 v0) (shapeCast S128x256 w shapeCasts_S1x128x256_S128x256) _ c).trans ?_
  exact Finset.sum_congr rfl fun d _ => congrArg₂ (· * ·) (pay1_apply v0 r f d) (wcast_apply w d c)

/-! ## The four blocks -/

/-- The query block: columns 0–63. -/
theorem pay9_apply (v0 : FVec Ideal S128x64x128 .bf16) (w : FVec Ideal S1x128x256 .bf16) (r : Fin 128) (f p : Fin 64) :
    k0_pay9 (k0_pay1 v0) w (ix3 r f p) = ∑ d : Fin 128, v0 (ix3 r f d) * w (ix3 (0 : Fin 1) d (⟨p.val, by omega⟩ : Fin 256)) := by
  unfold k0_pay9
  refine (rows_apply _ r f p).trans ?_
  refine (truncf_apply (ψ := .bf16) _ bitsLt_bf16_f32 _).trans ?_
  refine (cols_apply _ 0 (by omega) slices_S8192x256_o0_0_S8192x64 _ p).trans ?_
  refine (pay8_apply v0 w r f _).trans ?_
  rw [show (⟨0 + p.val, by omega⟩ : Fin 256) = ⟨p.val, by omega⟩ from Fin.ext (Nat.zero_add _)]

/-- The key block: columns 64–127. -/
theorem pay10_apply (v0 : FVec Ideal S128x64x128 .bf16) (w : FVec Ideal S1x128x256 .bf16) (r : Fin 128) (f p : Fin 64) :
    k0_pay10 (k0_pay1 v0) w (ix3 r f p) = ∑ d : Fin 128, v0 (ix3 r f d) * w (ix3 (0 : Fin 1) d (⟨64 + p.val, by omega⟩ : Fin 256)) := by
  unfold k0_pay10
  refine (rows_apply _ r f p).trans ?_
  refine (truncf_apply (ψ := .bf16) _ bitsLt_bf16_f32 _).trans ?_
  refine (cols_apply _ 64 (by omega) slices_S8192x256_o0_64_S8192x64 _ p).trans ?_
  exact pay8_apply v0 w r f _

/-- The value block: columns 128–191. -/
theorem pay11_apply (v0 : FVec Ideal S128x64x128 .bf16) (w : FVec Ideal S1x128x256 .bf16) (r : Fin 128) (f p : Fin 64) :
    k0_pay11 (k0_pay1 v0) w (ix3 r f p) = ∑ d : Fin 128, v0 (ix3 r f d) * w (ix3 (0 : Fin 1) d (⟨128 + p.val, by omega⟩ : Fin 256)) := by
  unfold k0_pay11
  refine (rows_apply _ r f p).trans ?_
  refine (truncf_apply (ψ := .bf16) _ bitsLt_bf16_f32 _).trans ?_
  refine (cols_apply _ 128 (by omega) slices_S8192x256_o0_128_S8192x64 _ p).trans ?_
  exact pay8_apply v0 w r f _

/-- The residual block: columns 192–255 (kept at full width, so no narrowing). -/
theorem pay12_apply (v0 : FVec Ideal S128x64x128 .bf16) (w : FVec Ideal S1x128x256 .bf16) (r : Fin 128) (f p : Fin 64) :
    k0_pay12 (F := Ideal) (k0_pay1 v0) w (ix3 r f p) = ∑ d : Fin 128, v0 (ix3 r f d) * w (ix3 (0 : Fin 1) d (⟨192 + p.val, by omega⟩ : Fin 256)) := by
  unfold k0_pay12
  refine (rows_apply _ r f p).trans ?_
  refine (cols_apply _ 192 (by omega) slices_S8192x256_o0_192_S8192x64 _ p).trans ?_
  exact pay8_apply v0 w r f _

end Cert.KernelIdeal.KValue

end
-- ==== Proof.KAttn.lean ====
/-
  One head's attention read at an index of one batch row. The scores are the sum over the lanes of query times key;
  for each key the maximum over the queries is taken from minus infinity, spread back over the queries, subtracted
  and exponentiated; the sum over the queries of these exponentials is spread back the same way and divides them;
  the output is the sum over the keys of these weights times the values. Each stage is read for an arbitrary block
  whose row is known, and the stages are then composed.
-/
import proofs.«404584_j62156766707848_3_alg».proof.Proof.KDefs
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KValue

open Cert.KernelIdeal Cert.KernelIdeal.Gen Idealize.ShloMosaic Idealize.ShloMosaic.ValueIdx

/-! ## The operand indices of the two products -/

/-- Scores: the left operand keeps the batch row, -/
theorem lhs_qk_0 (i : S128x64x64.Idx) (c : dot_S128x64x64_S128x64x64_S128x64x64_2_2_1_1_0_0.contr.Idx) :
    (dot_S128x64x64_S128x64x64_S128x64x64_2_2_1_1_0_0.lhsIdx i c 0).val = (i 0).val := by
  unfold DotDims.lhsIdx
  rw [dif_pos (show (0 : Fin S128x64x64.rank) ∈ dot_S128x64x64_S128x64x64_S128x64x64_2_2_1_1_0_0.lhsBatch by decide)]
  rfl
/-- takes the query from the output's middle axis, -/
theorem lhs_qk_1 (i : S128x64x64.Idx) (c : dot_S128x64x64_S128x64x64_S128x64x64_2_2_1_1_0_0.contr.Idx) :
    (dot_S128x64x64_S128x64x64_S128x64x64_2_2_1_1_0_0.lhsIdx i c 1).val = (i 1).val := by
  unfold DotDims.lhsIdx
  rw [dif_neg (show ¬(1 : Fin S128x64x64.rank) ∈ dot_S128x64x64_S128x64x64_S128x64x64_2_2_1_1_0_0.lhsBatch by decide), dif_pos (show (1 : Fin S128x64x64.rank) ∈ dot_S128x64x64_S128x64x64_S128x64x64_2_2_1_1_0_0.lhsNonContracting by decide)]
  rfl
/-- and runs over the lanes. -/
theorem lhs_qk_2 (i : S128x64x64.Idx) (c : dot_S128x64x64_S128x64x64_S128x64x64_2_2_1_1_0_0.contr.Idx) :
    (dot_S128x64x64_S128x64x64_S128x64x64_2_2_1_1_0_0.lhsIdx i c 2).val = (c ⟨0, by decide⟩).val :=
  dot_S128x64x64_S128x64x64_S128x64x64_2_2_1_1_0_0.lhsIdx_val_of_single rfl i c
/-- Scores: the right operand keeps the batch row, -/
theorem rhs_qk_0 (i : S128x64x64.Idx) (c : dot_S128x64x64_S128x64x64_S128x64x64_2_2_1_1_0_0.contr.Idx) :
    (dot_S128x64x64_S128x64x64_S128x64x64_2_2_1_1_0_0.rhsIdx i c 0).val = (i 0).val := by
  unfold DotDims.rhsIdx
  rw [dif_pos (show (0 : Fin S128x64x64.rank) ∈ dot_S128x64x64_S128x64x64_S128x64x64_2_2_1_1_0_0.rhsBatch by decide)]
  rfl
/-- takes the key from the output's last axis, -/
theorem rhs_qk_1 (i : S128x64x64.Idx) (c : dot_S128x64x64_S128x64x64_S128x64x64_2_2_1_1_0_0.contr.Idx) :
    (dot_S128x64x64_S128x64x64_S128x64x64_2_2_1_1_0_0.rhsIdx i c 1).val = (i 2).val := by
  unfold DotDims.rhsIdx
  rw [dif_neg (show ¬(1 : Fin S128x64x64.rank) ∈ dot_S128x64x64_S128x64x64_S128x64x64_2_2_1_1_0_0.rhsBatch by decide), dif_pos (show (1 : Fin S128x64x64.rank) ∈ dot_S128x64x64_S128x64x64_S128x64x64_2_2_1_1_0_0.rhsNonContracting by decide)]
  rfl
/-- and runs over the lanes. -/
theorem rhs_qk_2 (i : S128x64x64.Idx) (c : dot_S128x64x64_S128x64x64_S128x64x64_2_2_1_1_0_0.contr.Idx) :
    (dot_S128x64x64_S128x64x64_S128x64x64_2_2_1_1_0_0.rhsIdx i c 2).val = (c ⟨0, by decide⟩).val :=
  dot_S128x64x64_S128x64x64_S128x64x64_2_2_1_1_0_0.rhsIdx_val_of_single rfl i c

/-- Weighted sum: the left operand keeps the batch row, -/
theorem lhs_av_0 (i : S128x64x64.Idx) (c : dot_S128x64x64_S128x64x64_S128x64x64_2_1_1_2_0_0.contr.Idx) :
    (dot_S128x64x64_S128x64x64_S128x64x64_2_1_1_2_0_0.lhsIdx i c 0).val = (i 0).val := by
  unfold DotDims.lhsIdx
  rw [dif_pos (show (0 : Fin S128x64x64.rank) ∈ dot_S128x64x64_S128x64x64_S128x64x64_2_1_1_2_0_0.lhsBatch by decide)]
  rfl
/-- takes the query from the output's middle axis, -/
theorem lhs_av_1 (i : S128x64x64.Idx) (c : dot_S128x64x64_S128x64x64_S128x64x64_2_1_1_2_0_0.contr.Idx) :
    (dot_S128x64x64_S128x64x64_S128x64x64_2_1_1_2_0_0.lhsIdx i c 1).val = (i 1).val := by
  unfold DotDims.lhsIdx
  rw [dif_neg (show ¬(1 : Fin S128x64x64.rank) ∈ dot_S128x64x64_S128x64x64_S128x64x64_2_1_1_2_0_0.lhsBatch by decide), dif_pos (show (1 : Fin S128x64x64.rank) ∈ dot_S128x64x64_S128x64x64_S128x64x64_2_1_1_2_0_0.lhsNonContracting by decide)]
  rfl
/-- and runs over the keys. -/
theorem lhs_av_2 (i : S128x64x64.Idx) (c : dot_S128x64x64_S128x64x64_S128x64x64_2_1_1_2_0_0.contr.Idx) :
    (dot_S128x64x64_S128x64x64_S128x64x64_2_1_1_2_0_0.lhsIdx i c 2).val = (c ⟨0, by decide⟩).val :=
  dot_S128x64x64_S128x64x64_S128x64x64_2_1_1_2_0_0.lhsIdx_val_of_single rfl i c
/-- Weighted sum: the right operand keeps the batch row, -/
theorem rhs_av_0 (i : S128x64x64.Idx) (c : dot_S128x64x64_S128x64x64_S128x64x64_2_1_1_2_0_0.contr.Idx) :
    (dot_S128x64x64_S128x64x64_S128x64x64_2_1_1_2_0_0.rhsIdx i c 0).val = (i 0).val := by
  unfold DotDims.rhsIdx
  rw [dif_pos (show (0 : Fin S128x64x64.rank) ∈ dot_S128x64x64_S128x64x64_S128x64x64_2_1_1_2_0_0.rhsBatch by decide)]
  rfl
/-- runs over the keys on its middle axis, -/
theorem rhs_av_1 (i : S128x64x64.Idx) (c : dot_S128x64x64_S128x64x64_S128x64x64_2_1_1_2_0_0.contr.Idx) :
    (dot_S128x64x64_S128x64x64_S128x64x64_2_1_1_2_0_0.rhsIdx i c 1).val = (c ⟨0, by decide⟩).val :=
  dot_S128x64x64_S128x64x64_S128x64x64_2_1_1_2_0_0.rhsIdx_val_of_single rfl i c
/-- and takes the lane from the output's last axis. -/
theorem rhs_av_2 (i : S128x64x64.Idx) (c : dot_S128x64x64_S128x64x64_S128x64x64_2_1_1_2_0_0.contr.Idx) :
    (dot_S128x64x64_S128x64x64_S128x64x64_2_1_1_2_0_0.rhsIdx i c 2).val = (i 2).val := by
  unfold DotDims.rhsIdx
  rw [dif_neg (show ¬(2 : Fin S128x64x64.rank) ∈ dot_S128x64x64_S128x64x64_S128x64x64_2_1_1_2_0_0.rhsBatch by decide), dif_pos (show (2 : Fin S128x64x64.rank) ∈ dot_S128x64x64_S128x64x64_S128x64x64_2_1_1_2_0_0.rhsNonContracting by decide)]
  rfl

/-! ## The two products at an index of row `r` -/

/-- The scores at query `q`, key `k`: the sum over the lanes of query times key. -/
theorem scores_apply (qh kh : FVec Ideal S128x64x64 .bf16) (r : Fin 128) (Q K : Fin 64 → Fin 64 → EReal)
    (hq : ∀ f p, qh (ix3 r f p) = Q f p) (hk : ∀ f p, kh (ix3 r f p) = K f p) (q k : Fin 64) :
    matmul dot_S128x64x64_S128x64x64_S128x64x64_2_2_1_1_0_0 none qh kh (constant (F := Ideal) S128x64x64 .f32 0x00000000#32) (ix3 r q k)
      = scG Q K q k := by
  refine (Ideal.matmul_constant_zero_apply dot_S128x64x64_S128x64x64_S128x64x64_2_2_1_1_0_0 none qh kh (ix3 r q k)).trans ?_
  rw [← Equiv.sum_comp (contrEquiv1 dot_S128x64x64_S128x64x64_S128x64x64_2_2_1_1_0_0 64 rfl rfl).symm]
  unfold scG
  refine Finset.sum_congr rfl fun p _ => ?_
  have hp := contrEquiv1_symm_val dot_S128x64x64_S128x64x64_S128x64x64_2_2_1_1_0_0 64 rfl rfl p
  have el : dot_S128x64x64_S128x64x64_S128x64x64_2_2_1_1_0_0.lhsIdx (ix3 r q k) ((contrEquiv1 dot_S128x64x64_S128x64x64_S128x64x64_2_2_1_1_0_0 64 rfl rfl).symm p) = ix3 r q p := funext fun a => Fin.ext (by
    match a with
    | ⟨0, _⟩ => exact lhs_qk_0 _ _
    | ⟨1, _⟩ => exact lhs_qk_1 _ _
    | ⟨2, _⟩ => exact (lhs_qk_2 _ _).trans hp)
  have er : dot_S128x64x64_S128x64x64_S128x64x64_2_2_1_1_0_0.rhsIdx (ix3 r q k) ((contrEquiv1 dot_S128x64x64_S128x64x64_S128x64x64_2_2_1_1_0_0 64 rfl rfl).symm p) = ix3 r k p := funext fun a => Fin.ext (by
    match a with
    | ⟨0, _⟩ => exact rhs_qk_0 _ _
    | ⟨1, _⟩ => exact rhs_qk_1 _ _
    | ⟨2, _⟩ => exact (rhs_qk_2 _ _).trans hp)
  rw [el, er, hq, hk]

/-- The weighted sum at query `q`, lane `p`: the sum over the keys of weight times value. -/
theorem av_apply (a vh : FVec Ideal S128x64x64 .bf16) (r : Fin 128) (A V : Fin 64 → Fin 64 → EReal)
    (ha : ∀ q k, a (ix3 r q k) = A q k) (hv : ∀ f p, vh (ix3 r f p) = V f p) (q p : Fin 64) :
    matmul dot_S128x64x64_S128x64x64_S128x64x64_2_1_1_2_0_0 none a vh (constant (F := Ideal) S128x64x64 .f32 0x00000000#32) (ix3 r q p)
      = ∑ k : Fin 64, A q k * V k p := by
  refine (Ideal.matmul_constant_zero_apply dot_S128x64x64_S128x64x64_S128x64x64_2_1_1_2_0_0 none a vh (ix3 r q p)).trans ?_
  rw [← Equiv.sum_comp (contrEquiv1 dot_S128x64x64_S128x64x64_S128x64x64_2_1_1_2_0_0 64 rfl rfl).symm]
  refine Finset.sum_congr rfl fun k _ => ?_
  have hk := contrEquiv1_symm_val dot_S128x64x64_S128x64x64_S128x64x64_2_1_1_2_0_0 64 rfl rfl k
  have el : dot_S128x64x64_S128x64x64_S128x64x64_2_1_1_2_0_0.lhsIdx (ix3 r q p) ((contrEquiv1 dot_S128x64x64_S128x64x64_S128x64x64_2_1_1_2_0_0 64 rfl rfl).symm k) = ix3 r q k := funext fun a => Fin.ext (by
    match a with
    | ⟨0, _⟩ => exact lhs_av_0 _ _
    | ⟨1, _⟩ => exact lhs_av_1 _ _
    | ⟨2, _⟩ => exact (lhs_av_2 _ _).trans hk)
  have er : dot_S128x64x64_S128x64x64_S128x64x64_2_1_1_2_0_0.rhsIdx (ix3 r q p) ((contrEquiv1 dot_S128x64x64_S128x64x64_S128x64x64_2_1_1_2_0_0 64 rfl rfl).symm k) = ix3 r k p := funext fun a => Fin.ext (by
    match a with
    | ⟨0, _⟩ => exact rhs_av_0 _ _
    | ⟨1, _⟩ => exact (rhs_av_1 _ _).trans hk
    | ⟨2, _⟩ => exact rhs_av_2 _ _)
  rw [el, er, ha, hv]

/-! ## The reductions over the queries and their spreading back -/

/-- The index of row `r`, key `k` with query `q` put back on the middle axis. -/
theorem lift_rk (r : Fin 128) (k q : Fin 64) : reduces_S128x64x64_S128x64.lift (ix2 r k) q = ix3 r q k :=
  funext fun a => Fin.ext (by
    match a with
    | ⟨0, _⟩ => rfl
    | ⟨1, _⟩ => rfl
    | ⟨2, _⟩ => rfl)

/-- The maximum over the queries, from minus infinity. -/
theorem mx_apply (s : FVec Ideal S128x64x64 .f32) (r : Fin 128) (S : Fin 64 → Fin 64 → EReal)
    (hs : ∀ q k, s (ix3 r q k) = S q k) (k : Fin 64) :
    multiReduction .maximumf [1] S128x64 s 0xFF800000#32 reduces_S128x64x64_S128x64 (.inl rfl) rfl (ix2 r k)
      = (Finset.univ : Finset (Fin 64)).fold max (Ideal.ofBits .f32 0xFF800000#32) (fun q => S q k) := by
  refine (Ideal.multiReduction_maximumf_single s 0xFF800000#32 reduces_S128x64x64_S128x64 (.inl rfl) rfl (ix2 r k)).trans ?_
  exact congrArg ((Finset.univ : Finset (Fin 64)).fold max (Ideal.ofBits .f32 0xFF800000#32))
    (funext fun q : Fin 64 => (congrArg s (lift_rk r k q)).trans (hs q k))

/-- The sum over the queries. -/
theorem den_apply (e : FVec Ideal S128x64x64 .f32) (r : Fin 128) (E : Fin 64 → Fin 64 → EReal)
    (he : ∀ q k, e (ix3 r q k) = E q k) (k : Fin 64) :
    multiReduction .add [1] S128x64 e 0x00000000#32 reduces_S128x64x64_S128x64 (.inl rfl) rfl (ix2 r k)
      = ∑ q : Fin 64, E q k := by
  refine (Ideal.multiReduction_add_single e 0x00000000#32 reduces_S128x64x64_S128x64 (.inl rfl) rfl (ix2 r k)).trans ?_
  exact Finset.sum_congr rfl fun (q : Fin 64) _ => (congrArg e (lift_rk r k q)).trans (he q k)

/-- A per-key row given a unit query axis and spread over the queries reads, at any query, the row's entry. -/
theorem spread_apply (m : FVec Ideal S128x64 .f32) (r : Fin 128) (q k : Fin 64) :
    broadcastTo S128x64x64 (shapeCast S128x1x64 m shapeCasts_S128x64_S128x1x64) broadcasts_S128x1x64_S128x64x64 (ix3 r q k)
      = m (ix2 r k) := by
  refine (broadcastTo_apply (shapeCast S128x1x64 m shapeCasts_S128x64_S128x1x64) broadcasts_S128x1x64_S128x64x64 (ix3 r q k) (ix3 r (0 : Fin 1) k) (fun a => ?_)).trans ?_
  · match a with
    | ⟨0, _⟩ => show r.val = if (128 : Nat) = 1 then 0 else r.val; rw [if_neg (by decide)]
    | ⟨1, _⟩ => show 0 = if (1 : Nat) = 1 then 0 else q.val; rw [if_pos rfl]
    | ⟨2, _⟩ => show k.val = if (64 : Nat) = 1 then 0 else k.val; rw [if_neg (by decide)]
  · exact shapeCast_apply m shapeCasts_S128x64_S128x1x64 (ix3 r (0 : Fin 1) k) (ix2 r k) (by
      rw [Shape.rowMajor_val_three, Shape.rowMajor_val_two]
      show r.val * 64 + k.val = (r.val * 1 + 0) * 64 + k.val
      omega)

/-! ## The softmax over the queries, and the whole pipeline -/

/-- Shifted exponentials of a block of scores: each score minus its key's maximum over the queries, exponentiated. -/
def expStage (s : FVec Ideal S128x64x64 .f32) : FVec Ideal S128x64x64 .f32 :=
  exp (subf s (broadcastTo S128x64x64 (shapeCast S128x1x64
    (multiReduction .maximumf [1] S128x64 s 0xFF800000#32 reduces_S128x64x64_S128x64 (.inl rfl) rfl)
    shapeCasts_S128x64_S128x1x64) broadcasts_S128x1x64_S128x64x64))

/-- A block divided by its per-key sums over the queries. -/
def attStage (e : FVec Ideal S128x64x64 .f32) : FVec Ideal S128x64x64 .bf16 :=
  truncf .bf16 (divf e (broadcastTo S128x64x64 (shapeCast S128x1x64
    (multiReduction .add [1] S128x64 e 0x00000000#32 reduces_S128x64x64_S128x64 (.inl rfl) rfl)
    shapeCasts_S128x64_S128x1x64) broadcasts_S128x1x64_S128x64x64)) bitsLt_bf16_f32

/-- The pipeline is the second product applied to the two stages of the first. -/
theorem attnChain_eq (c0 : FVec Ideal S128x64x64 .f32) (qh kh vh : FVec Ideal S128x64x64 .bf16) :
    attnChain c0 qh kh vh
      = matmul dot_S128x64x64_S128x64x64_S128x64x64_2_1_1_2_0_0 none
          (attStage (expStage (matmul dot_S128x64x64_S128x64x64_S128x64x64_2_2_1_1_0_0 none qh kh c0))) vh
          (constant (F := Ideal) S128x64x64 .f32 0x00000000#32) := rfl

/-- The shifted exponential at query `q`, key `k`. -/
theorem expStage_apply (s : FVec Ideal S128x64x64 .f32) (r : Fin 128) (S : Fin 64 → Fin 64 → EReal)
    (hs : ∀ q k, s (ix3 r q k) = S q k) (q k : Fin 64) :
    expStage s (ix3 r q k)
      = Ideal.exp (S q k - (Finset.univ : Finset (Fin 64)).fold max (Ideal.ofBits .f32 0xFF800000#32) (fun q' => S q' k)) := by
  show Ideal.exp (s (ix3 r q k) - broadcastTo S128x64x64 (shapeCast S128x1x64
    (multiReduction .maximumf [1] S128x64 s 0xFF800000#32 reduces_S128x64x64_S128x64 (.inl rfl) rfl)
    shapeCasts_S128x64_S128x1x64) broadcasts_S128x1x64_S128x64x64 (ix3 r q k)) = _
  rw [spread_apply, mx_apply s r S hs k, hs]

/-- The weight at query `q`, key `k`. -/
theorem attStage_apply (e : FVec Ideal S128x64x64 .f32) (r : Fin 128) (E : Fin 64 → Fin 64 → EReal)
    (he : ∀ q k, e (ix3 r q k) = E q k) (q k : Fin 64) :
    attStage e (ix3 r q k) = Ideal.div (E q k) (∑ q' : Fin 64, E q' k) := by
  show Ideal.div (e (ix3 r q k)) (broadcastTo S128x64x64 (shapeCast S128x1x64
    (multiReduction .add [1] S128x64 e 0x00000000#32 reduces_S128x64x64_S128x64 (.inl rfl) rfl)
    shapeCasts_S128x64_S128x1x64) broadcasts_S128x1x64_S128x64x64 (ix3 r q k)) = _
  rw [spread_apply, den_apply e r E he k, he]

/-- One head's attention output at query `q`, lane `p` of batch row `r`, from the row's query, key and value blocks. -/
theorem attnChain_apply (c0 : FVec Ideal S128x64x64 .f32) (hc0 : c0 = constant S128x64x64 .f32 0x00000000#32)
    (qh kh vh : FVec Ideal S128x64x64 .bf16) (r : Fin 128) (Q K V : Fin 64 → Fin 64 → EReal)
    (hq : ∀ f p, qh (ix3 r f p) = Q f p) (hk : ∀ f p, kh (ix3 r f p) = K f p) (hv : ∀ f p, vh (ix3 r f p) = V f p) (q p : Fin 64) :
    attnChain c0 qh kh vh (ix3 r q p) = avG Q K V q p := by
  subst hc0
  rw [attnChain_eq]
  exact av_apply _ vh r
    (fun q k => Ideal.div (Ideal.exp (scG Q K q k - mxG Q K k)) (∑ q' : Fin 64, Ideal.exp (scG Q K q' k - mxG Q K k))) V
    (fun q k => attStage_apply _ r (fun q k => Ideal.exp (scG Q K q k - mxG Q K k))
      (fun q k => expStage_apply _ r (scG Q K) (fun q k => scores_apply qh kh r Q K hq hk q k) q k) q k)
    hv q p

end Cert.KernelIdeal.KValue

end
-- ==== Proof.KTail.lean ====
/-
  The head pair's tail read at the one column of a row. Two heads' [128, 64, 64] blocks laid side by side along the
  lanes read, at (r, f, l), lane l % 64 of the first block when l < 64 and of the second otherwise; the same holds for the
  pair's output weights, which do not depend on the row. The clipped sum of the two concatenations, multiplied by the
  weights, is summed over the 128 lanes and then over the 64 features, and the result is added to the carried column.
-/
import proofs.«404584_j62156766707848_3_alg».proof.Proof.KDefs
import Idealize.ShloMosaic.Lib.ValueIdx
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.ValueIdx

/-- Two [128, 64, 64] blocks laid side by side along the lanes, at (r, f, l): lane l of the first block when l < 64,
    lane l − 64 = l % 64 of the second otherwise. -/
theorem cat3_apply (a b : FVec Ideal S128x64x64 .f32) (r : Fin 128) (f : Fin 64) (l : Fin 128) :
    concatenate S128x64x128 2 [⟨S128x64x64, a⟩, ⟨S128x64x64, b⟩] concatenates_S128x64x64_S128x64x64_S128x64x128_d2 (ix3 r f l)
      = pairG (fun f p => a (ix3 r f p)) (fun f p => b (ix3 r f p)) f l := by
  unfold pairG
  by_cases h : l.val < 64
  · rw [if_pos h]
    exact concatenate_pair_apply_left (t := S128x64x128) 2 a b _ (ix3 r f l) rfl
      (ix3 r f (⟨l.val % 64, Nat.mod_lt _ (by decide)⟩ : Fin 64))
      (fun c => match c with
        | ⟨0, _⟩ => rfl
        | ⟨1, _⟩ => rfl
        | ⟨2, _⟩ => by show l.val % 64 = l.val; omega)
  · rw [if_neg h]
    exact concatenate_pair_apply_right (t := S128x64x128) 2 a b _ (ix3 r f l) rfl rfl
      (ix3 r f (⟨l.val % 64, Nat.mod_lt _ (by decide)⟩ : Fin 64))
      (fun c hc => match c, hc with
        | ⟨0, _⟩, _ => rfl
        | ⟨1, _⟩, _ => rfl
        | ⟨2, _⟩, hc => absurd rfl hc)
      (by show l.val % 64 + 64 = l.val; have := l.isLt; omega)

/-- Two [64, 64] blocks laid side by side along the lanes, at (f, l). -/
theorem cat2_apply (a b : FVec Ideal S64x64 .f32) (f : Fin 64) (l : Fin 128) :
    concatenate S64x128 1 [⟨S64x64, a⟩, ⟨S64x64, b⟩] concatenates_S64x64_S64x64_S64x128_d1 (ix2 f l)
      = pairG (fun f p => a (ix2 f p)) (fun f p => b (ix2 f p)) f l := by
  unfold pairG
  by_cases h : l.val < 64
  · rw [if_pos h]
    exact concatenate_pair_apply_left (t := S64x128) 1 a b _ (ix2 f l) rfl
      (ix2 f (⟨l.val % 64, Nat.mod_lt _ (by decide)⟩ : Fin 64))
      (fun c => match c with
        | ⟨0, _⟩ => rfl
        | ⟨1, _⟩ => by show l.val % 64 = l.val; omega)
  · rw [if_neg h]
    exact concatenate_pair_apply_right (t := S64x128) 1 a b _ (ix2 f l) rfl rfl
      (ix2 f (⟨l.val % 64, Nat.mod_lt _ (by decide)⟩ : Fin 64))
      (fun c hc => match c, hc with
        | ⟨0, _⟩, _ => rfl
        | ⟨1, _⟩, hc => absurd rfl hc)
      (by show l.val % 64 + 64 = l.val; have := l.isLt; omega)

/-- A [1, 64, 64] block reshaped to [64, 64], at (f, p): the block at (0, f, p), the same row-major position. -/
theorem sq_apply (o : FVec Ideal S1x64x64 .f32) (f p : Fin 64) :
    shapeCast S64x64 o shapeCasts_S1x64x64_S64x64 (ix2 f p) = o (ix3 (0 : Fin 1) f p) := by
  refine shapeCast_apply o shapeCasts_S1x64x64_S64x64 (ix2 f p) (ix3 (0 : Fin 1) f p) ?_
  rw [Shape.rowMajor_val_three, Shape.rowMajor_val_two]
  show (0 * 64 + f.val) * 64 + p.val = f.val * 64 + p.val
  omega

/-- The pair's output weights as the kernel lays them out — each head's block reshaped to [64, 64], the two side by
    side along the lanes, reshaped to [1, 64, 128] and broadcast down the 128 rows — at (r, f, l): the pair's weight at
    (f, l), whatever the row. -/
theorem wts_apply (o1 o2 : FVec Ideal S1x64x64 .f32) (r : Fin 128) (f : Fin 64) (l : Fin 128) :
    broadcastTo S128x64x128
        (shapeCast S1x64x128
          (concatenate S64x128 1 [⟨S64x64, shapeCast S64x64 o1 shapeCasts_S1x64x64_S64x64⟩,
            ⟨S64x64, shapeCast S64x64 o2 shapeCasts_S1x64x64_S64x64⟩] concatenates_S64x64_S64x64_S64x128_d1)
          shapeCasts_S64x128_S1x64x128)
        broadcasts_S1x64x128_S128x64x128 (ix3 r f l)
      = pairG (fun f p => o1 (ix3 (0 : Fin 1) f p)) (fun f p => o2 (ix3 (0 : Fin 1) f p)) f l := by
  refine (broadcastTo_apply _ broadcasts_S1x64x128_S128x64x128 (ix3 r f l) (ix3 (0 : Fin 1) f l) ?_).trans ?_
  · intro a
    match a with
    | ⟨0, _⟩ => rfl
    | ⟨1, _⟩ => rfl
    | ⟨2, _⟩ => rfl
  refine (shapeCast_apply _ shapeCasts_S64x128_S1x64x128 (ix3 (0 : Fin 1) f l) (ix2 f l) ?_).trans ?_
  · rw [Shape.rowMajor_val_three, Shape.rowMajor_val_two]
    show f.val * 128 + l.val = (0 * 64 + f.val) * 128 + l.val
    omega
  refine (cat2_apply _ _ f l).trans ?_
  exact congrArg₂ (fun a b => pairG a b f l) (funext fun f' => funext fun p => sq_apply o1 f' p)
    (funext fun f' => funext fun p => sq_apply o2 f' p)

/-- The sum over the lanes of a [128, 64, 128] block, at (r, f). -/
theorem redLanes_apply (v : FVec Ideal S128x64x128 .f32) (hφ : FKind.Formats .f32)
    (hacc : (0x00000000#32 : BitVec 32) = FKind.add.neutral .f32 hφ) (r : Fin 128) (f : Fin 64) :
    multiReduction .add [2] S128x64 v 0x00000000#32 reduces_S128x64x128_S128x64 hφ hacc (ix2 r f)
      = ∑ l : Fin 128, v (ix3 r f l) := by
  refine (Ideal.multiReduction_add_single v _ reduces_S128x64x128_S128x64 hφ hacc (ix2 r f)).trans ?_
  refine Finset.sum_congr rfl fun l _ => ?_
  exact congrArg v (funext fun c => Fin.ext (by match c with | ⟨0, _⟩ => rfl | ⟨1, _⟩ => rfl | ⟨2, _⟩ => rfl))

/-- The sum over the features of a [128, 64] block, at r. -/
theorem redFeat_apply (v : FVec Ideal S128x64 .f32) (hφ : FKind.Formats .f32)
    (hacc : (0x00000000#32 : BitVec 32) = FKind.add.neutral .f32 hφ) (r : Fin 128) :
    multiReduction .add [1] S128 v 0x00000000#32 reduces_S128x64_S128 hφ hacc (ix1 r)
      = ∑ f : Fin 64, v (ix2 r f) := by
  refine (Ideal.multiReduction_add_single v _ reduces_S128x64_S128 hφ hacc (ix1 r)).trans ?_
  refine Finset.sum_congr rfl fun f _ => ?_
  exact congrArg v (funext fun c => Fin.ext (by match c with | ⟨0, _⟩ => rfl | ⟨1, _⟩ => rfl))

/-- A [128] vector reshaped to one column, at (r, 0). -/
theorem col_apply (v : FVec Ideal S128 .f32) (r : Fin 128) :
    shapeCast S128x1 v shapeCasts_S128_S128x1 (ix2 r (0 : Fin 1)) = v (ix1 r) := by
  refine shapeCast_apply v shapeCasts_S128_S128x1 (ix2 r (0 : Fin 1)) (ix1 r) ?_
  rw [Shape.rowMajor_val_one, Shape.rowMajor_val_two]
  show r.val = r.val * 1 + 0
  omega

/-- THE TAIL AT ROW r: the carried column's entry plus, over the features and the pair's 128 lanes, the clipped sum of
    attention output and residual times the pair's output weight. -/
theorem tailChain_apply (acc : FVec Ideal S128x1 .f32) (av1 av2 r1 r2 : FVec Ideal S128x64x64 .f32)
    (o1 o2 : FVec Ideal S1x64x64 .f32) (r : Fin 128) :
    tailChain acc av1 av2 r1 r2 o1 o2 (ix2 r (0 : Fin 1)) =
      acc (ix2 r (0 : Fin 1)) + ∑ f : Fin 64, ∑ l : Fin 128,
        max (pairG (fun f p => av1 (ix3 r f p)) (fun f p => av2 (ix3 r f p)) f l
            + pairG (fun f p => r1 (ix3 r f p)) (fun f p => r2 (ix3 r f p)) f l) 0
          * pairG (fun f p => o1 (ix3 (0 : Fin 1) f p)) (fun f p => o2 (ix3 (0 : Fin 1) f p)) f l := by
  unfold tailChain
  refine congrArg (acc (ix2 r (0 : Fin 1)) + ·) ?_
  refine (col_apply _ r).trans ?_
  refine (redFeat_apply _ _ _ r).trans ?_
  refine Finset.sum_congr rfl fun f _ => ?_
  refine (redLanes_apply _ _ _ r f).trans ?_
  refine Finset.sum_congr rfl fun l _ => ?_
  -- the product, the clip and the sum are pointwise; the zero word is the extended real 0
  refine (mulf_apply _ _ (ix3 r f l)).trans ?_
  refine congrArg₂ (· * ·) ?_ (wts_apply o1 o2 r f l)
  refine (maximumf_apply _ _ (ix3 r f l)).trans ?_
  refine congrArg₂ max ?_ Ideal.ofBits_zero_f32
  refine (addf_apply _ _ (ix3 r f l)).trans ?_
  exact congrArg₂ (· + ·) (cat3_apply av1 av2 r f l) (cat3_apply r1 r2 r f l)

end Cert.KernelIdeal.KValue

end
-- ==== Proof.KITripValue.lean ====
/-
  One loop trip at the ideal instance, read at a batch row. With the row's embeddings `e f d`, the weight block read
  as four 128 × 512 matrices (its column blocks, head by head) and the output-weight block read by flat position,
  trip `k` adds to the carried column exactly the specification's share of head pair `k`: each of the pair's two heads
  gets its attention output and its residual from its own weight slab, the two are laid side by side along the 128
  lanes, clipped, weighted and summed. The whole block is then the specification's pairwise-accumulated result.
-/
import proofs.«404584_j62156766707848_3_alg».proof.Proof.KIBlock
import proofs.«404584_j62156766707848_3_alg».proof.Proof.KProj
import proofs.«404584_j62156766707848_3_alg».proof.Proof.KAttn
import proofs.«404584_j62156766707848_3_alg».proof.Proof.KTail

set_option maxRecDepth 16384

noncomputable section

namespace Cert.KernelIdeal.Hand

open Cert.KernelIdeal Cert.KernelIdeal.Gen Cert.KernelIdeal.KValue Idealize.ShloMosaic Idealize.ShloMosaic.ValueIdx

/-- Row `r` of an embedding block. -/
def rowOf (x0 : FVec Ideal S128x64x128 .bf16) (r : Fin 128) : Fin 64 → Fin 128 → EReal := fun f d => x0 (ix3 r f d)

/-- A weight slab that is slab `hh` of the weight block gives head `hh`'s projections: column block `s`, lane `p`. -/
theorem WsOf_col (s : Fin 4) (x1 : FVec Ideal S8x128x256 .bf16) (hh : Fin 8) (d : Fin 128) (p : Fin 64) :
    WsOf s x1 d (Cert.Spec.col hh p) = x1 (ix3 hh d (⟨64 * s.val + p.val, by omega⟩ : Fin 256)) := by
  unfold WsOf Cert.Spec.col
  congr 1
  funext a
  match a with
  | ⟨0, _⟩ => exact Fin.ext (by show (hh.val * 64 + p.val) / 64 = hh.val; omega)
  | ⟨1, _⟩ => rfl
  | ⟨2, _⟩ => exact Fin.ext (by show 64 * s.val + (hh.val * 64 + p.val) % 64 = 64 * s.val + p.val; omega)

/-- Head `hh`'s four projection blocks at row `r`, from a slab `w` that is slab `hh` of the weight block. -/
theorem head_proj (x0 : FVec Ideal S128x64x128 .bf16) (x1 : FVec Ideal S8x128x256 .bf16) (w : FVec Ideal S1x128x256 .bf16) (hh : Fin 8)
    (hw : ∀ (d : Fin 128) (cc : Fin 256), w (ix3 (0 : Fin 1) d cc) = x1 (ix3 hh d cc)) (r : Fin 128) (f p : Fin 64) :
    k0_pay9 (F := Ideal) (k0_pay1 x0) w (ix3 r f p) = Cert.Spec.proj (rowOf x0 r) (WsOf 0 x1) f (Cert.Spec.col hh p)
    ∧ k0_pay10 (F := Ideal) (k0_pay1 x0) w (ix3 r f p) = Cert.Spec.proj (rowOf x0 r) (WsOf 1 x1) f (Cert.Spec.col hh p)
    ∧ k0_pay11 (F := Ideal) (k0_pay1 x0) w (ix3 r f p) = Cert.Spec.proj (rowOf x0 r) (WsOf 2 x1) f (Cert.Spec.col hh p)
    ∧ k0_pay12 (F := Ideal) (k0_pay1 x0) w (ix3 r f p) = Cert.Spec.proj (rowOf x0 r) (WsOf 3 x1) f (Cert.Spec.col hh p) := by
  refine ⟨?_, ?_, ?_, ?_⟩
  · rw [pay9_apply]; unfold Cert.Spec.proj rowOf
    exact Finset.sum_congr rfl fun d _ => by
      rw [hw, WsOf_col]
      exact congrArg (fun z => x0 (ix3 r f d) * x1 (ix3 hh d z)) (Fin.ext (by simp))
  · rw [pay10_apply]; unfold Cert.Spec.proj rowOf
    exact Finset.sum_congr rfl fun d _ => by
      rw [hw, WsOf_col]
      exact congrArg (fun z => x0 (ix3 r f d) * x1 (ix3 hh d z)) (Fin.ext (by simp))
  · rw [pay11_apply]; unfold Cert.Spec.proj rowOf
    exact Finset.sum_congr rfl fun d _ => by
      rw [hw, WsOf_col]
      exact congrArg (fun z => x0 (ix3 r f d) * x1 (ix3 hh d z)) (Fin.ext (by simp))
  · rw [pay12_apply]; unfold Cert.Spec.proj rowOf
    exact Finset.sum_congr rfl fun d _ => by
      rw [hw, WsOf_col]
      exact congrArg (fun z => x0 (ix3 r f d) * x1 (ix3 hh d z)) (Fin.ext (by simp))

/-- Head `hh`'s attention output at row `r`. -/
theorem head_attn (x0 : FVec Ideal S128x64x128 .bf16) (x1 : FVec Ideal S8x128x256 .bf16) (w : FVec Ideal S1x128x256 .bf16) (hh : Fin 8)
    (hw : ∀ (d : Fin 128) (cc : Fin 256), w (ix3 (0 : Fin 1) d cc) = x1 (ix3 hh d cc)) (r : Fin 128) (q p : Fin 64) :
    attnChain (constant S128x64x64 .f32 0x00000000#32) (k0_pay9 (F := Ideal) (k0_pay1 x0) w) (k0_pay10 (F := Ideal) (k0_pay1 x0) w) (k0_pay11 (F := Ideal) (k0_pay1 x0) w) (ix3 r q p)
      = Cert.Spec.av (rowOf x0 r) (WsOf 0 x1) (WsOf 1 x1) (WsOf 2 x1) hh q p := by
  rw [attnChain_apply _ rfl _ _ _ r
    (fun f p => Cert.Spec.proj (rowOf x0 r) (WsOf 0 x1) f (Cert.Spec.col hh p))
    (fun f p => Cert.Spec.proj (rowOf x0 r) (WsOf 1 x1) f (Cert.Spec.col hh p))
    (fun f p => Cert.Spec.proj (rowOf x0 r) (WsOf 2 x1) f (Cert.Spec.col hh p))
    (fun f p => (head_proj x0 x1 w hh hw r f p).1) (fun f p => (head_proj x0 x1 w hh hw r f p).2.1)
    (fun f p => (head_proj x0 x1 w hh hw r f p).2.2.1)]
  rfl

/-- Slab `hh` of a block, loaded through the unit rectangle at leading offset `hh`. -/
theorem slab_w (x1 : Vec Ideal S8x128x256 .bf16) (off : Fin 3 → Nat) (inb : ∀ a, off a + S1x128x256.size a ≤ S8x128x256.size a) (hh : Fin 8)
    (hoff : off = ![hh.val, 0, 0]) (d : Fin 128) (cc : Fin 256) :
    View.ld (Val := Elt Ideal) x1 (Rect.unit (s := S8x128x256) off S1x128x256.size inb) (ix3 (0 : Fin 1) d cc) = x1 (ix3 hh d cc) := by
  subst hoff
  show x1 ((Rect.unit (s := S8x128x256) ![hh.val, 0, 0] S1x128x256.size inb).idx (ix3 (0 : Fin 1) d cc)) = x1 (ix3 hh d cc)
  congr 1
  funext a
  match a with
  | ⟨0, _⟩ => exact Fin.ext (by show hh.val + 1 * 0 = hh.val; omega)
  | ⟨1, _⟩ => exact Fin.ext (by show 0 + 1 * d.val = d.val; omega)
  | ⟨2, _⟩ => exact Fin.ext (by show 0 + 1 * cc.val = cc.val; omega)

theorem slab_o (x2 : Vec Ideal S8x64x64 .f32) (off : Fin 3 → Nat) (inb : ∀ a, off a + S1x64x64.size a ≤ S8x64x64.size a) (hh : Fin 8)
    (hoff : off = ![hh.val, 0, 0]) (f p : Fin 64) :
    View.ld (Val := Elt Ideal) x2 (Rect.unit (s := S8x64x64) off S1x64x64.size inb) (ix3 (0 : Fin 1) f p) = x2 (ix3 hh f p) := by
  subst hoff
  show x2 ((Rect.unit (s := S8x64x64) ![hh.val, 0, 0] S1x64x64.size inb).idx (ix3 (0 : Fin 1) f p)) = x2 (ix3 hh f p)
  congr 1
  funext a
  match a with
  | ⟨0, _⟩ => exact Fin.ext (by show hh.val + 1 * 0 = hh.val; omega)
  | ⟨1, _⟩ => exact Fin.ext (by show 0 + 1 * f.val = f.val; omega)
  | ⟨2, _⟩ => exact Fin.ext (by show 0 + 1 * p.val = p.val; omega)

/-- The output weights of head `hh`, feature `f`, lane `p` sit at the flat position of (f, hh, p). -/
theorem owK_flat (x2 : FVec Ideal S8x64x64 .f32) (f : Fin 64) (hh : Fin 8) (p : Fin 64) :
    owK x2 (Cert.Spec.flat f hh p) = x2 (ix3 hh f p) := by
  unfold owK Cert.Spec.flat Cert.Spec.hOf Cert.Spec.fOf Cert.Spec.pOf
  congr 1
  funext a
  match a with
  | ⟨0, _⟩ => exact Fin.ext (by show (f.val * 512 + hh.val * 64 + p.val) % 512 / 64 = hh.val; omega)
  | ⟨1, _⟩ => exact Fin.ext (by show (f.val * 512 + hh.val * 64 + p.val) / 512 = f.val; omega)
  | ⟨2, _⟩ => exact Fin.ext (by show (f.val * 512 + hh.val * 64 + p.val) % 64 = p.val; omega)

theorem k_lt (k : Fin k0_t1_loop.trips) : k.val < 4 := by have := k.isLt; have h := trips4; omega

/-- The two heads of pair `k`. -/
def hA (k : Fin k0_t1_loop.trips) : Fin 8 := ⟨2 * k.val, by have := k_lt k; omega⟩
def hB (k : Fin k0_t1_loop.trips) : Fin 8 := ⟨2 * k.val + 1, by have := k_lt k; omega⟩
def k4 (k : Fin k0_t1_loop.trips) : Fin 4 := ⟨k.val, k_lt k⟩

/-- A lane of the pair belongs to the first head when it is below 64 and to the second otherwise. -/
theorem pair_head (k : Fin k0_t1_loop.trips) (G : Fin 8 → Fin 64 → Fin 64 → EReal) (f : Fin 64) (l : Fin 128) :
    pairG (G (hA k)) (G (hB k)) f l = G (Cert.Spec.headOf (k4 k) l) f (Cert.Spec.laneOf l) := by
  unfold pairG
  have hk := k_lt k
  split
  · next h =>
    have : Cert.Spec.headOf (k4 k) l = hA k := Fin.ext (by show 2 * k.val + l.val / 64 = 2 * k.val; omega)
    rw [this]; rfl
  · next h =>
    have : Cert.Spec.headOf (k4 k) l = hB k := Fin.ext (by show 2 * k.val + l.val / 64 = 2 * k.val + 1; have := l.isLt; omega)
    rw [this]; rfl

/-- One trip at row `r`: the carried value plus pair `k`'s share. -/
theorem trip_value (x0 : FVec Ideal S128x64x128 .bf16) (x1 : FVec Ideal S8x128x256 .bf16) (x2 : FVec Ideal S8x64x64 .f32)
    (k : Fin k0_t1_loop.trips) (acc : FVec Ideal S128x1 .f32) (r : Fin 128) :
    tripFn (F := Ideal) x0 x1 x2 k acc (ix2 r (0 : Fin 1))
      = acc (ix2 r (0 : Fin 1)) + Cert.Spec.contrib (rowOf x0 r) (WsOf 0 x1) (WsOf 1 x1) (WsOf 2 x1) (WsOf 3 x1) (owK x2) (k4 k) := by
  have hwA : ∀ (d : Fin 128) (cc : Fin 256), (wA (F := Ideal) x1 k : FVec Ideal S1x128x256 .bf16) (ix3 (0 : Fin 1) d cc) = x1 (ix3 (hA k) d cc) :=
    fun d cc => slab_w x1 _ _ (hA k) (k0_off1_eq k) d cc
  have hwB : ∀ (d : Fin 128) (cc : Fin 256), (wB (F := Ideal) x1 k : FVec Ideal S1x128x256 .bf16) (ix3 (0 : Fin 1) d cc) = x1 (ix3 (hB k) d cc) :=
    fun d cc => slab_w x1 _ _ (hB k) (k0_off2_eq k) d cc
  unfold tripFn
  rw [pay3_eq, pay7_eq, pay6_eq, tailChain_apply]
  congr 1
  unfold Cert.Spec.contrib
  refine Finset.sum_congr rfl fun f _ => Finset.sum_congr rfl fun l _ => ?_
  have eA : (fun f p => attnChain (constant S128x64x64 .f32 0x00000000#32) (k0_pay9 (F := Ideal) (k0_pay1 x0) (wA x1 k)) (k0_pay10 (F := Ideal) (k0_pay1 x0) (wA x1 k)) (k0_pay11 (F := Ideal) (k0_pay1 x0) (wA x1 k)) (ix3 r f p))
      = fun f p => Cert.Spec.av (rowOf x0 r) (WsOf 0 x1) (WsOf 1 x1) (WsOf 2 x1) (hA k) f p :=
    funext fun f => funext fun p => head_attn x0 x1 _ (hA k) hwA r f p
  have eB : (fun f p => attnChain (constant S128x64x64 .f32 0x00000000#32) (k0_pay9 (F := Ideal) (k0_pay1 x0) (wB x1 k)) (k0_pay10 (F := Ideal) (k0_pay1 x0) (wB x1 k)) (k0_pay11 (F := Ideal) (k0_pay1 x0) (wB x1 k)) (ix3 r f p))
      = fun f p => Cert.Spec.av (rowOf x0 r) (WsOf 0 x1) (WsOf 1 x1) (WsOf 2 x1) (hB k) f p :=
    funext fun f => funext fun p => head_attn x0 x1 _ (hB k) hwB r f p
  have rA : (fun f p => k0_pay12 (F := Ideal) (k0_pay1 x0) (wA x1 k) (ix3 r f p))
      = fun f p => Cert.Spec.proj (rowOf x0 r) (WsOf 3 x1) f (Cert.Spec.col (hA k) p) :=
    funext fun f => funext fun p => (head_proj x0 x1 _ (hA k) hwA r f p).2.2.2
  have rB : (fun f p => k0_pay12 (F := Ideal) (k0_pay1 x0) (wB x1 k) (ix3 r f p))
      = fun f p => Cert.Spec.proj (rowOf x0 r) (WsOf 3 x1) f (Cert.Spec.col (hB k) p) :=
    funext fun f => funext fun p => (head_proj x0 x1 _ (hB k) hwB r f p).2.2.2
  have oAe : (fun f p => (oA (F := Ideal) x2 k : FVec Ideal S1x64x64 .f32) (ix3 (0 : Fin 1) f p)) = fun f p => owK x2 (Cert.Spec.flat f (hA k) p) :=
    funext fun f => funext fun p => (slab_o x2 _ _ (hA k) (k0_off3_eq k) f p).trans (owK_flat x2 f (hA k) p).symm
  have oBe : (fun f p => (oB (F := Ideal) x2 k : FVec Ideal S1x64x64 .f32) (ix3 (0 : Fin 1) f p)) = fun f p => owK x2 (Cert.Spec.flat f (hB k) p) :=
    funext fun f => funext fun p => (slab_o x2 _ _ (hB k) (k0_off4_eq k) f p).trans (owK_flat x2 f (hB k) p).symm
  rw [eA, eB, rA, rB, oAe, oBe]
  rw [pair_head k (fun hh f p => Cert.Spec.av (rowOf x0 r) (WsOf 0 x1) (WsOf 1 x1) (WsOf 2 x1) hh f p),
    pair_head k (fun hh f p => Cert.Spec.proj (rowOf x0 r) (WsOf 3 x1) f (Cert.Spec.col hh p)),
    pair_head k (fun hh f p => owK x2 (Cert.Spec.flat f hh p))]
  rfl

end Cert.KernelIdeal.Hand

end
-- ==== Proof.KIValue.lean ====
/-
  The idealized kernel's result array as one function of the buffers the region finds. Each grid point `t` writes
  rows `128 t … 128 t + 127` of the result; row `r` of its block is the specification's pairwise-accumulated value of
  batch row `128 t + r` of the gathered embeddings, with the per-head weight array read as four 128 × 512 matrices, the
  per-head output weights read by flat position, and the bias. The sixteen blocks tile the array, so the array ends
  holding that function at every row.
-/
import proofs.«404584_j62156766707848_3_alg».proof.Proof.KITripValue

set_option maxRecDepth 16384

noncomputable section

namespace Cert.KernelIdeal.Hand

open Cert.KernelIdeal Cert.KernelIdeal.Gen Cert.KernelIdeal.KValue Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The bias added and the logistic function applied, at row `r`. -/
theorem pay4_apply (v5 : FVec Ideal S128x1 .f32) (v6 : FVec Ideal S1x1 .f32) (r : Fin 128) :
    k0_pay4 v5 v6 (ix2 r (0 : Fin 1)) = Ideal.logistic (v5 (ix2 r (0 : Fin 1)) + v6 (ix2 (0 : Fin 1) (0 : Fin 1))) := by
  have e : broadcastTo S128x1 (shapeCast S1x1 v6 shapeCasts_S1x1_S1x1) broadcasts_S1x1_S128x1 (ix2 r (0 : Fin 1)) = v6 (ix2 (0 : Fin 1) (0 : Fin 1)) := by
    rw [shapeCast_self]
    exact broadcastTo_apply v6 broadcasts_S1x1_S128x1 (ix2 r (0 : Fin 1)) (ix2 (0 : Fin 1) (0 : Fin 1))
      (fun a => by match a with | ⟨0, _⟩ => rfl | ⟨1, _⟩ => rfl)
  show Ideal.logistic (v5 (ix2 r (0 : Fin 1)) + broadcastTo S128x1 (shapeCast S1x1 v6 shapeCasts_S1x1_S1x1) broadcasts_S1x1_S128x1 (ix2 r (0 : Fin 1))) = _
  rw [e]

/-- The loop starts from the zero column. -/
theorem pay2_apply (r : Fin 128) : k0_pay2 (F := Ideal) (ix2 r (0 : Fin 1)) = 0 := by
  show Ideal.ofBits .f32 0x00000000#32 = 0
  exact Ideal.ofBits_zero_f32

/-- Row `r` of the block the body stores. -/
theorem block_value (x0 : FVec Ideal S128x64x128 .bf16) (x1 : FVec Ideal S8x128x256 .bf16) (x2 : FVec Ideal S8x64x64 .f32) (x3 : FVec Ideal S1x1 .f32) (r : Fin 128) :
    blockFn (F := Ideal) x0 x1 x2 x3 (ix2 r (0 : Fin 1))
      = Cert.Spec.yKer (rowOf x0 r) (WsOf 0 x1) (WsOf 1 x1) (WsOf 2 x1) (WsOf 3 x1) (owK x2) (x3 (ix2 (0 : Fin 1) (0 : Fin 1))) := by
  unfold blockFn
  rw [pay4_apply, trip_value, trip_value, trip_value, trip_value, pay2_apply]
  rfl

/-- The result array as a function of the buffers at region entry. -/
def G (c : Dev nD) : S2048x1.Idx → EReal := fun i =>
  Cert.Spec.yKer (fun f d => (V m c main_v7 : FVec Ideal S2048x64x128 .bf16) (ix3 (⟨(i 0).val, (i 0).isLt⟩ : Fin 2048) f d))
    (WsOf 0 (V m c main_v20 : FVec Ideal S8x128x256 .bf16)) (WsOf 1 (V m c main_v20 : FVec Ideal S8x128x256 .bf16))
    (WsOf 2 (V m c main_v20 : FVec Ideal S8x128x256 .bf16)) (WsOf 3 (V m c main_v20 : FVec Ideal S8x128x256 .bf16))
    (owK (V m c main_v22 : FVec Ideal S8x64x64 .f32)) ((V m c main_v23 : FVec Ideal S1x1 .f32) (ix2 (0 : Fin 1) (0 : Fin 1)))

/-- The index maps over the sixteen grid points: the embedding window and the result window move together along the
    batch axis, one block per point; the three weight windows stay at block zero. -/
theorem idx_facts : ∀ t : Fin cfg0.N, win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A function on [128, 1] blocks is determined by its values at the rows. -/
theorem block_ext (X Y : FVec Ideal S128x1 .f32) (h : ∀ r : Fin 128, X (ix2 r (0 : Fin 1)) = Y (ix2 r (0 : Fin 1))) : X = Y := by
  funext j
  obtain ⟨r, q, rfl⟩ : ∃ (r : Fin 128) (q : Fin 1), j = ix2 r q := ⟨j 0, j 1, eq_ix2 j⟩
  have hq : q = 0 := Fin.ext (by have := q.isLt; omega)
  subst hq
  exact h r

/-- What point `t` writes back is block `t` of `G`. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  unfold outsAt
  rw [outBlk_eq]
  obtain ⟨e00, e01, e02, e10, e11, e12, e20, e21, e22, e30, e31, e40, e41⟩ := idx_facts t
  refine block_ext _ _ fun r => ?_
  refine (block_value (iblk m c 0 t) (iblk m c 1 t) (iblk m c 2 t) (iblk m c 3 t) r).trans ?_
  show _ = G m c (((cfg0.win 4).blk t).view.emb (ix2 r (0 : Fin 1)))
  unfold G
  have h0 : rowOf (iblk m c 0 t) r = fun f d => (V m c main_v7 : FVec Ideal S2048x64x128 .bf16)
      (ix3 (⟨((((cfg0.win 4).blk t).view.emb (ix2 r (0 : Fin 1))) 0).val, ((((cfg0.win 4).blk t).view.emb (ix2 r (0 : Fin 1))) 0).isLt⟩ : Fin 2048) f d) := by
    funext f d
    unfold rowOf iblk
    show V m c main_v7 (((cfg0.win 0).blk t).view.emb (ix3 r f d)) = V m c main_v7 _
    congr 1
    funext a
    apply Fin.ext
    match a with
    | ⟨0, _⟩ => show win0_0.index t (0 : Fin 3) * 128 + 1 * r.val = win0_4.index t (0 : Fin 2) * 128 + 1 * r.val; omega
    | ⟨1, _⟩ => show win0_0.index t (1 : Fin 3) * 64 + 1 * f.val = f.val; omega
    | ⟨2, _⟩ => show win0_0.index t (2 : Fin 3) * 128 + 1 * d.val = d.val; omega
  have h1 : (iblk m c 1 t : FVec Ideal S8x128x256 .bf16) = V m c main_v20 := by
    funext y
    unfold iblk
    show V m c main_v20 (((cfg0.win 1).blk t).view.emb y) = V m c main_v20 y
    congr 1
    funext a
    apply Fin.ext
    match a with
    | ⟨0, _⟩ => show win0_1.index t (0 : Fin 3) * 8 + 1 * (y 0).val = (y 0).val; omega
    | ⟨1, _⟩ => show win0_1.index t (1 : Fin 3) * 128 + 1 * (y 1).val = (y 1).val; omega
    | ⟨2, _⟩ => show win0_1.index t (2 : Fin 3) * 256 + 1 * (y 2).val = (y 2).val; omega
  have h2 : (iblk m c 2 t : FVec Ideal S8x64x64 .f32) = V m c main_v22 := by
    funext y
    unfold iblk
    show V m c main_v22 (((cfg0.win 2).blk t).view.emb y) = V m c main_v22 y
    congr 1
    funext a
    apply Fin.ext
    match a with
    | ⟨0, _⟩ => show win0_2.index t (0 : Fin 3) * 8 + 1 * (y 0).val = (y 0).val; omega
    | ⟨1, _⟩ => show win0_2.index t (1 : Fin 3) * 64 + 1 * (y 1).val = (y 1).val; omega
    | ⟨2, _⟩ => show win0_2.index t (2 : Fin 3) * 64 + 1 * (y 2).val = (y 2).val; omega
  have h3 : (iblk m c 3 t : FVec Ideal S1x1 .f32) = V m c main_v23 := by
    funext y
    unfold iblk
    show V m c main_v23 (((cfg0.win 3).blk t).view.emb y) = V m c main_v23 y
    congr 1
    funext a
    apply Fin.ext
    match a with
    | ⟨0, _⟩ => show win0_3.index t (0 : Fin 2) * 1 + 1 * (y 0).val = (y 0).val; omega
    | ⟨1, _⟩ => show win0_3.index t (1 : Fin 2) * 1 + 1 * (y 1).val = (y 1).val; omega
  rw [h0, h1, h2, h3]

/-- An index of the result array is in point `t`'s block iff its row is among the block's 128 rows. -/
theorem mem_blk (t : Fin cfg0.N) (i : S2048x1.Idx) :
    i ∈ ((cfg0.win 4).blk t).view.set ↔ ∀ a : Fin 2, win0_4.index t a * S128x1.size a ≤ (i a).val ∧ (i a).val < win0_4.index t a * S128x1.size a + S128x1.size a := by
  show i ∈ ((View.whole main_v24).slice (win0_4.rect t)).set ↔ _
  rw [View.set_slice_whole, Rect.mem_set_unit]
  exact Iff.rfl

/-- Row `i` is in the block of point `i / 128`. -/
theorem cover (i : S2048x1.Idx) : ∃ t : Fin cfg0.N, (cfg0.win 4).flush t = true ∧ i ∈ ((cfg0.win 4).blk t).view.set := by
  have hi0 : (i 0).val < 2048 := (i 0).isLt
  have hi1 : (i 1).val < 1 := (i 1).isLt
  have hN : cfg0.N = 16 := N_0
  let t : Fin cfg0.N := ⟨(i 0).val / 128, by rw [hN]; omega⟩
  obtain ⟨-, -, -, -, -, -, -, -, -, -, -, e40, e41⟩ := idx_facts t
  have tv : t.val = (i 0).val / 128 := rfl
  refine ⟨t, flush0_4 t, ?_⟩
  rw [mem_blk]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 1 ≤ (i 1).val ∧ (i 1).val < win0_4.index t (1 : Fin 2) * 1 + 1; omega

/-- The result array after the run. -/
theorem final (c : Dev nD) : (dats m 0 c).arrAt 4 cfg0.N = G m c :=
  (dats m 0 c).arrAt_eq_of_cover 4 (G m c) (fun t _ => flushed_eq m c t) cover

/-- The run with the result named: the result array at `G`, the eight argument arrays unchanged. -/
theorem run_value : θ_run defs (onTc (τ := τ) (main (F := Ideal))) ⟨m, fun _ => 0, ρ⟩ fun r => ∀ c : Dev nD,
      r.2.mem ((c : Thread nD τ).loc main_v24) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 4).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.KernelIdeal.Hand

end
-- ==== Proof.RefDefs.lean ====
/-
  Names shared by the modules that read the reference program: the argument arrays' content types, one batch row of
  the gathered embeddings as a function of feature and width, a weight matrix and the output weights as functions of
  plain coordinates.
-/
import proofs.«404584_j62156766707848_3_alg».proof.Proof.Gen.ReferenceIdeal.Read
import proofs.«404584_j62156766707848_3_alg».proof.Proof.Spec

noncomputable section

namespace Cert.ReferenceIdeal.RefValue

open Cert.ReferenceIdeal Cert.ReferenceIdeal.Gen Cert.ReferenceIdeal.Read Idealize.ShloMosaic Idealize.ShloMosaic.ValueIdx

abbrev C2048x64 := (⟨S2048x64, .i32⟩ : BufTy).Contents (Elt Ideal)
abbrev CTab := (⟨S100000x128, .f32⟩ : BufTy).Contents (Elt Ideal)
abbrev CW := (⟨S128x512, .f32⟩ : BufTy).Contents (Elt Ideal)
abbrev COw := (⟨S32768x1, .f32⟩ : BufTy).Contents (Elt Ideal)
abbrev COb := (⟨S1, .f32⟩ : BufTy).Contents (Elt Ideal)

/-- Batch row `B` of the gathered embeddings: feature `f`, width `d`. -/
def rowE (x0 : C2048x64) (x1 : CTab) (B : Fin 2048) : Fin 64 → Fin 128 → EReal :=
  fun f d => val_main_v6 (F := Ideal) x0 x1 (ix3 B f d)

/-- A weight matrix by row and column. -/
def wOf (x : CW) : Fin 128 → Fin 512 → EReal := fun d j => x (ix2 d j)

/-- The output weights by flat position. -/
def owOf (x6 : COw) : Fin 32768 → EReal := fun j => x6 (ix2 j 0)

end Cert.ReferenceIdeal.RefValue

end
-- ==== Proof.KHost.lean ====
/-
  What the four staged operand arrays of the idealized kernel hold when its one region is entered, in terms of the
  program's argument arrays, over the extended reals.

  The embeddings: the indices are normalised (100000 added where negative), given a unit axis, and the table's rows
  gathered at them, by the same operations the reference applies; the table's narrowing to bf16 is the identity.
  The weights: each 128 × 512 matrix is reshaped to 128 × 8 × 64 and its first two axes swapped, so that entry
  (h, d, p) is the matrix at row `d`, column `h * 64 + p`; the four results are laid side by side along the last
  axis, so that column block `s` of the 8 × 128 × 256 array is the `s`-th matrix.
  The output weights: the 32768 × 1 column is reshaped to 64 × 8 × 64 and its first two axes swapped, so that entry
  (h, f, p) is the column at row `f * 512 + h * 64 + p`.
  The bias: the one-entry vector as a 1 × 1 matrix.
-/
import proofs.«404584_j62156766707848_3_alg».proof.Proof.KIKit
import proofs.«404584_j62156766707848_3_alg».proof.Proof.KDefs
import proofs.«404584_j62156766707848_3_alg».proof.Proof.RefDefs
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen Cert.KernelIdeal.KValue
open Idealize.ShloMosaic Idealize.ShloMosaic.TcCoe Idealize.ShloMosaic.ValueIdx Idealize.SL.Sem

variable (m : (ℓ : Loc nD τ sig) → Buf (Elt Ideal) ℓ)

/-! ## The gathered embeddings -/

/-- The kernel's program and the reference normalise the indices and gather the table's rows by the same
    operations; the table's narrowing to bf16 is the identity on extended reals. -/
theorem V_v7_eq (c : Dev nD) :
    (V m c main_v7 : S2048x64x128.Idx → EReal)
      = Cert.ReferenceIdeal.Read.val_main_v6 (F := Ideal) (m ((c : Thread nD τ).loc main_arg0)) (m ((c : Thread nD τ).loc main_arg1)) := by
  dsimp only [V, hostOps0]; after_results; rfl

/-- Entry (B, f, d) of the staged embeddings is the reference's gathered entry. -/
theorem V_v7_apply (c : Dev nD) (B : Fin 2048) (f : Fin 64) (d : Fin 128) :
    (V m c main_v7 : FVec Ideal S2048x64x128 .bf16) (ix3 B f d)
      = Cert.ReferenceIdeal.Read.val_main_v6 (F := Ideal) (m ((c : Thread nD τ).loc main_arg0)) (m ((c : Thread nD τ).loc main_arg1)) (ix3 B f d) :=
  congrFun (V_v7_eq m c) (ix3 B f d)

/-! ## The per-head weights -/

/-- A 128 × 512 matrix reshaped to 128 × 8 × 64, its first two axes swapped, narrowed to bf16 (the identity on
    extended reals). -/
def stageW (x : FVec Ideal S128x512 .f32) : FVec Ideal S8x128x64 .bf16 :=
  truncf .bf16 (transpose S8x128x64 [1, 0, 2] (shapeCast S128x8x64 x shapeCasts_S128x512_S128x8x64) transposes_S128x8x64_S8x128x64_1_0_2) bitsLt_bf16_f32

/-- Entry (h, d, p) of the swapped array is entry (d, h, p) of the reshaped one, which is the matrix at row `d`,
    column `h * 64 + p` (both at row-major position `(d * 8 + h) * 64 + p`). -/
theorem stageW_apply (x : FVec Ideal S128x512 .f32) (h : Fin 8) (d : Fin 128) (p : Fin 64) :
    stageW x (ix3 h d p) = x (ix2 d (⟨h.val * 64 + p.val, by omega⟩ : Fin 512)) := by
  unfold stageW
  refine (truncf_apply (ψ := .bf16) _ bitsLt_bf16_f32 _).trans ?_
  refine (transpose_apply _ _ transposes_S128x8x64_S8x128x64_1_0_2 (ix3 h d p) (ix3 d h p)
    (fun b => match b with | ⟨0, _⟩ => rfl | ⟨1, _⟩ => rfl | ⟨2, _⟩ => rfl)).trans ?_
  refine shapeCast_apply x shapeCasts_S128x512_S128x8x64 (ix3 d h p) (ix2 d (⟨h.val * 64 + p.val, by omega⟩ : Fin 512)) ?_
  rw [Shape.rowMajor_val_two, Shape.rowMajor_val_three]
  show d.val * 512 + (h.val * 64 + p.val) = (d.val * 8 + h.val) * 64 + p.val
  omega

/-- Four 8 × 128 × 64 blocks laid side by side along the last axis: column `64 k + p` is column `p` of block `k`. -/
theorem concat4_piece (a0 a1 a2 a3 : FVec Ideal S8x128x64 .bf16) (k : Nat) (hk : k < 4) (x₁ : FVec Ideal S8x128x64 .bf16)
    (hx : ([⟨S8x128x64, a0⟩, ⟨S8x128x64, a1⟩, ⟨S8x128x64, a2⟩, ⟨S8x128x64, a3⟩] : List ((s : Shape) × (s.Idx → EReal)))[k]'hk = ⟨S8x128x64, x₁⟩)
    (h : Fin 8) (d : Fin 128) (p : Fin 64) (q : Fin 256) (hq : 64 * k + p.val = q.val) :
    concatenate S8x128x256 2 [⟨S8x128x64, a0⟩, ⟨S8x128x64, a1⟩, ⟨S8x128x64, a2⟩, ⟨S8x128x64, a3⟩]
        concatenates_S8x128x64_S8x128x64_S8x128x64_S8x128x64_S8x128x256_d2 (ix3 h d q)
      = x₁ (ix3 h d p) := by
  refine concatenate_apply_piece (α := EReal) (t := S8x128x256) (2 : Fin 3)
    [⟨S8x128x64, a0⟩, ⟨S8x128x64, a1⟩, ⟨S8x128x64, a2⟩, ⟨S8x128x64, a3⟩]
    concatenates_S8x128x64_S8x128x64_S8x128x64_S8x128x64_S8x128x256_d2 (ix3 h d q)
    k hk S8x128x64 x₁ hx rfl (64 * k) ?_ (ix3 h d p) ?_ hq
  · match k, hk with
    | 0, _ => rfl
    | 1, _ => rfl
    | 2, _ => rfl
    | 3, _ => rfl
  · intro b hb
    match b, hb with
    | ⟨0, _⟩, _ => rfl
    | ⟨1, _⟩, _ => rfl
    | ⟨2, _⟩, hb => exact absurd rfl hb

/-- The staged weight array: the four matrices, each reshaped and swapped, side by side along the lanes. -/
def wallOf (x2 x3 x4 x5 : FVec Ideal S128x512 .f32) : FVec Ideal S8x128x256 .bf16 :=
  concatenate S8x128x256 2 [⟨S8x128x64, stageW x2⟩, ⟨S8x128x64, stageW x3⟩, ⟨S8x128x64, stageW x4⟩, ⟨S8x128x64, stageW x5⟩]
    concatenates_S8x128x64_S8x128x64_S8x128x64_S8x128x64_S8x128x256_d2

/-- Column block `k` of the staged weights, read as a 128 × 512 matrix, is the `k`-th matrix: column `j` is lane
    `j % 64` of head `j / 64`, and `j / 64 * 64 + j % 64 = j`. -/
theorem WsOf_wallOf (x2 x3 x4 x5 : FVec Ideal S128x512 .f32) (s : Fin 4) (k : Nat) (hk : k < 4) (hs : s.val = k) (x : FVec Ideal S128x512 .f32)
    (hx : ([⟨S8x128x64, stageW x2⟩, ⟨S8x128x64, stageW x3⟩, ⟨S8x128x64, stageW x4⟩, ⟨S8x128x64, stageW x5⟩] : List ((s : Shape) × (s.Idx → EReal)))[k]'hk = ⟨S8x128x64, stageW x⟩)
    (d : Fin 128) (j : Fin 512) :
    WsOf s (wallOf x2 x3 x4 x5) d j = x (ix2 d j) := by
  unfold WsOf wallOf
  refine (concat4_piece _ _ _ _ k hk (stageW x) hx (⟨j.val / 64, by omega⟩ : Fin 8) d (⟨j.val % 64, by omega⟩ : Fin 64) _ ?_).trans ?_
  · show 64 * k + j.val % 64 = 64 * s.val + j.val % 64
    rw [hs]
  · refine (stageW_apply x _ d _).trans (congrArg (fun q : Fin 512 => x (ix2 d q)) (Fin.ext ?_))
    show j.val / 64 * 64 + j.val % 64 = j.val
    omega

/-- The staged weight array when the region is entered. -/
theorem V_v20_eq (c : Dev nD) :
    (V m c main_v20 : S8x128x256.Idx → EReal)
      = wallOf (m ((c : Thread nD τ).loc main_arg2)) (m ((c : Thread nD τ).loc main_arg3))
          (m ((c : Thread nD τ).loc main_arg4)) (m ((c : Thread nD τ).loc main_arg5)) := by
  dsimp only [V, hostOps0]; after_results; rfl

/-- The query block of the staged weights is the first weight matrix. -/
theorem V_v20_q (c : Dev nD) :
    WsOf 0 (V m c main_v20 : FVec Ideal S8x128x256 .bf16)
      = fun d j => (m ((c : Thread nD τ).loc main_arg2) : FVec Ideal S128x512 .f32) (ix2 d j) := by
  funext d j
  rw [V_v20_eq]
  exact WsOf_wallOf _ _ _ _ 0 0 (by decide) rfl _ rfl d j

/-- The key block is the second weight matrix. -/
theorem V_v20_k (c : Dev nD) :
    WsOf 1 (V m c main_v20 : FVec Ideal S8x128x256 .bf16)
      = fun d j => (m ((c : Thread nD τ).loc main_arg3) : FVec Ideal S128x512 .f32) (ix2 d j) := by
  funext d j
  rw [V_v20_eq]
  exact WsOf_wallOf _ _ _ _ 1 1 (by decide) rfl _ rfl d j

/-- The value block is the third weight matrix. -/
theorem V_v20_v (c : Dev nD) :
    WsOf 2 (V m c main_v20 : FVec Ideal S8x128x256 .bf16)
      = fun d j => (m ((c : Thread nD τ).loc main_arg4) : FVec Ideal S128x512 .f32) (ix2 d j) := by
  funext d j
  rw [V_v20_eq]
  exact WsOf_wallOf _ _ _ _ 2 2 (by decide) rfl _ rfl d j

/-- The residual block is the fourth weight matrix. -/
theorem V_v20_r (c : Dev nD) :
    WsOf 3 (V m c main_v20 : FVec Ideal S8x128x256 .bf16)
      = fun d j => (m ((c : Thread nD τ).loc main_arg5) : FVec Ideal S128x512 .f32) (ix2 d j) := by
  funext d j
  rw [V_v20_eq]
  exact WsOf_wallOf _ _ _ _ 3 3 (by decide) rfl _ rfl d j

/-! ## The output weights and the bias -/

/-- The 32768 × 1 column reshaped to 64 × 8 × 64 and its first two axes swapped. -/
def stageOw (x : FVec Ideal S32768x1 .f32) : FVec Ideal S8x64x64 .f32 :=
  transpose S8x64x64 [1, 0, 2] (shapeCast S64x8x64 x shapeCasts_S32768x1_S64x8x64) transposes_S64x8x64_S8x64x64_1_0_2

/-- Entry (h, f, p) of the swapped array is entry (f, h, p) of the reshaped one, which is the column at row
    `f * 512 + h * 64 + p` (both at row-major position `(f * 8 + h) * 64 + p`). -/
theorem stageOw_apply (x : FVec Ideal S32768x1 .f32) (h : Fin 8) (f : Fin 64) (p : Fin 64) :
    stageOw x (ix3 h f p) = x (ix2 (⟨f.val * 512 + h.val * 64 + p.val, by omega⟩ : Fin 32768) (0 : Fin 1)) := by
  unfold stageOw
  refine (transpose_apply _ _ transposes_S64x8x64_S8x64x64_1_0_2 (ix3 h f p) (ix3 f h p)
    (fun b => match b with | ⟨0, _⟩ => rfl | ⟨1, _⟩ => rfl | ⟨2, _⟩ => rfl)).trans ?_
  refine shapeCast_apply x shapeCasts_S32768x1_S64x8x64 (ix3 f h p) (ix2 (⟨f.val * 512 + h.val * 64 + p.val, by omega⟩ : Fin 32768) (0 : Fin 1)) ?_
  rw [Shape.rowMajor_val_two, Shape.rowMajor_val_three]
  show (f.val * 512 + h.val * 64 + p.val) * 1 + 0 = (f.val * 8 + h.val) * 64 + p.val
  omega

/-- Read by flat position, the swapped array is the column again: position `j` has feature `j / 512`, head
    `j % 512 / 64` and lane `j % 64`, and `j / 512 * 512 + j % 512 / 64 * 64 + j % 64 = j`. -/
theorem owK_stageOw (x : FVec Ideal S32768x1 .f32) (j : Fin 32768) : owK (stageOw x) j = x (ix2 j (0 : Fin 1)) := by
  unfold owK
  refine (stageOw_apply x _ _ _).trans (congrArg (fun q : Fin 32768 => x (ix2 q (0 : Fin 1))) (Fin.ext ?_))
  show j.val / 512 * 512 + j.val % 512 / 64 * 64 + j.val % 64 = j.val
  omega

/-- The staged output weights when the region is entered. -/
theorem V_v22_eq (c : Dev nD) :
    (V m c main_v22 : S8x64x64.Idx → EReal) = stageOw (m ((c : Thread nD τ).loc main_arg6)) := by
  dsimp only [V, hostOps0]; after_results; rfl

/-- By flat position the staged output weights are the output-weight column. -/
theorem V_v22_ow (c : Dev nD) :
    owK (V m c main_v22 : FVec Ideal S8x64x64 .f32)
      = fun j => (m ((c : Thread nD τ).loc main_arg6) : FVec Ideal S32768x1 .f32) (ix2 j (0 : Fin 1)) := by
  funext j
  rw [V_v22_eq]
  exact owK_stageOw _ j

/-- The staged bias when the region is entered: the one-entry vector as a 1 × 1 matrix. -/
theorem V_v23_eq (c : Dev nD) :
    (V m c main_v23 : S1x1.Idx → EReal)
      = shapeCast S1x1 (m ((c : Thread nD τ).loc main_arg7) : FVec Ideal S1 .f32) shapeCasts_S1_S1x1 := by
  dsimp only [V, hostOps0]; after_results; rfl

/-- The staged bias is the bias. -/
theorem V_v23_ob (c : Dev nD) :
    (V m c main_v23 : FVec Ideal S1x1 .f32) (ix2 (0 : Fin 1) (0 : Fin 1))
      = (m ((c : Thread nD τ).loc main_arg7) : FVec Ideal S1 .f32) (ix1 (0 : Fin 1)) := by
  rw [V_v23_eq]
  exact shapeCast_a_1a_apply _ shapeCasts_S1_S1x1 (0 : Fin 1) (0 : Fin 1)

end Cert.KernelIdeal.Hand

end
-- ==== Proof.RefProj.lean ====
/-
  The reference's four projections and its scores, read at the indices of one batch row.

  Each projection is a contraction of the gathered embeddings with a weight matrix over the width: its entry at
  batch row `B`, feature `f`, column `j` is the sum over `d` of the row's entry `(f, d)` times the weight's
  entry `(d, j)`, which is `Spec.proj`. The reshape splits the column `j = h * 64 + p` into head `h` and lane `p`
  (row-major positions agree), the transpose exchanges the feature and head axes, and the scores contract the lane
  axis of the query and key projections, which is `Spec.scores`.
-/
import proofs.«404584_j62156766707848_3_alg».proof.Proof.RefDefs

noncomputable section

namespace Cert.ReferenceIdeal.RefValue

open Cert.ReferenceIdeal Cert.ReferenceIdeal.Gen Cert.ReferenceIdeal.Read Idealize.ShloMosaic Idealize.ShloMosaic.ValueIdx

/-! ## The width contraction at row `(B, f)`, column `j` -/

/-- The left operand's index in term `d` of a width contraction: entry `(B, f, d)` of the embeddings. -/
theorem lidx_width (B : Fin 2048) (f : Fin 64) (j : Fin 512) (d : Fin 128) :
    lidx_main_v7 (ix3 B f j) d = ix3 B f d :=
  funext fun a => Fin.ext (by match a with | ⟨0, _⟩ => rfl | ⟨1, _⟩ => rfl | ⟨2, _⟩ => rfl)

/-- The right operand's index in term `d` of a width contraction: entry `(d, j)` of the weight. -/
theorem ridx_width (B : Fin 2048) (f : Fin 64) (j : Fin 512) (d : Fin 128) :
    ridx_main_v7 (ix3 B f j) d = ix2 d j :=
  funext fun a => Fin.ext (by match a with | ⟨0, _⟩ => rfl | ⟨1, _⟩ => rfl)

/-- The query projection before its reshape. -/
theorem ref_proj7 (x0 : C2048x64) (x1 : CTab) (x2 : CW) (B : Fin 2048) (f : Fin 64) (j : Fin 512) :
    val_main_v7 (F := Ideal) x0 x1 x2 (ix3 B f j) = Cert.Spec.proj (rowE x0 x1 B) (wOf x2) f j := by
  rw [val_main_v7_apply]
  unfold Cert.Spec.proj rowE wOf
  refine Finset.sum_congr rfl fun d _ => ?_
  rw [lidx_width, ridx_width]

/-- The key projection before its reshape. -/
theorem ref_proj10 (x0 : C2048x64) (x1 : CTab) (x3 : CW) (B : Fin 2048) (f : Fin 64) (j : Fin 512) :
    val_main_v10 (F := Ideal) x0 x1 x3 (ix3 B f j) = Cert.Spec.proj (rowE x0 x1 B) (wOf x3) f j := by
  rw [val_main_v10_apply]
  unfold Cert.Spec.proj rowE wOf
  refine Finset.sum_congr rfl fun d _ => ?_
  rw [show lidx_main_v10 (ix3 B f j) d = ix3 B f d from lidx_width B f j d,
    show ridx_main_v10 (ix3 B f j) d = ix2 d j from ridx_width B f j d]

/-- The value projection before its reshape. -/
theorem ref_proj13 (x0 : C2048x64) (x1 : CTab) (x4 : CW) (B : Fin 2048) (f : Fin 64) (j : Fin 512) :
    val_main_v13 (F := Ideal) x0 x1 x4 (ix3 B f j) = Cert.Spec.proj (rowE x0 x1 B) (wOf x4) f j := by
  rw [val_main_v13_apply]
  unfold Cert.Spec.proj rowE wOf
  refine Finset.sum_congr rfl fun d _ => ?_
  rw [show lidx_main_v13 (ix3 B f j) d = ix3 B f d from lidx_width B f j d,
    show ridx_main_v13 (ix3 B f j) d = ix2 d j from ridx_width B f j d]

/-- The residual projection. -/
theorem ref_projR (x0 : C2048x64) (x1 : CTab) (x5 : CW) (B : Fin 2048) (f : Fin 64) (j : Fin 512) :
    val_main_v31 (F := Ideal) x0 x1 x5 (ix3 B f j) = Cert.Spec.proj (rowE x0 x1 B) (wOf x5) f j := by
  rw [val_main_v31_apply]
  unfold Cert.Spec.proj rowE wOf
  refine Finset.sum_congr rfl fun d _ => ?_
  rw [show lidx_main_v31 (ix3 B f j) d = ix3 B f d from lidx_width B f j d,
    show ridx_main_v31 (ix3 B f j) d = ix2 d j from ridx_width B f j d]

/-! ## Heads and lanes: the reshape and the transpose -/

/-- The reshape reads feature `f`, head `h`, lane `p` of row `B` at column `h * 64 + p`: the two row-major positions
    are `((B * 64 + f) * 8 + h) * 64 + p = (B * 64 + f) * 512 + (h * 64 + p)`. -/
theorem idx_reshape (B : Fin 2048) (f : Fin 64) (h : Fin 8) (p : Fin 64) :
    idx_main_v8 (ix4 B f h p) = ix3 B f (Cert.Spec.col h p) :=
  funext fun a => Fin.ext (by
    have hB : B.val < 2048 := B.isLt
    have hf : f.val < 64 := f.isLt
    have hh : h.val < 8 := h.isLt
    have hp : p.val < 64 := p.isLt
    match a with
    | ⟨0, _⟩ => show (((B.val * 64 + f.val) * 8 + h.val) * 64 + p.val) / 32768 = B.val; omega
    | ⟨1, _⟩ => show (((B.val * 64 + f.val) * 8 + h.val) * 64 + p.val) / 512 % 64 = f.val; omega
    | ⟨2, _⟩ => show (((B.val * 64 + f.val) * 8 + h.val) * 64 + p.val) % 512 = h.val * 64 + p.val; omega)

/-- The transpose exchanges the head and feature axes. -/
theorem idx_transpose (B : Fin 2048) (h : Fin 8) (f p : Fin 64) :
    idx_main_v9 (ix4 B h f p) = ix4 B f h p :=
  funext fun a => Fin.ext (by match a with | ⟨0, _⟩ => rfl | ⟨1, _⟩ => rfl | ⟨2, _⟩ => rfl | ⟨3, _⟩ => rfl)

/-- The query projection by head: feature `f`, lane `p` of head `h`. -/
theorem ref_projQ (x0 : C2048x64) (x1 : CTab) (x2 : CW) (B : Fin 2048) (h : Fin 8) (f p : Fin 64) :
    val_main_v9 (F := Ideal) x0 x1 x2 (ix4 B h f p) = Cert.Spec.proj (rowE x0 x1 B) (wOf x2) f (Cert.Spec.col h p) := by
  rw [val_main_v9_apply, idx_transpose, val_main_v8_apply, idx_reshape, ref_proj7]

/-- The key projection by head. -/
theorem ref_projK (x0 : C2048x64) (x1 : CTab) (x3 : CW) (B : Fin 2048) (h : Fin 8) (f p : Fin 64) :
    val_main_v12 (F := Ideal) x0 x1 x3 (ix4 B h f p) = Cert.Spec.proj (rowE x0 x1 B) (wOf x3) f (Cert.Spec.col h p) := by
  rw [val_main_v12_apply, show idx_main_v12 (ix4 B h f p) = ix4 B f h p from idx_transpose B h f p,
    val_main_v11_apply, show idx_main_v11 (ix4 B f h p) = ix3 B f (Cert.Spec.col h p) from idx_reshape B f h p,
    ref_proj10]

/-- The value projection by head. -/
theorem ref_projV (x0 : C2048x64) (x1 : CTab) (x4 : CW) (B : Fin 2048) (h : Fin 8) (k p : Fin 64) :
    val_main_v15 (F := Ideal) x0 x1 x4 (ix4 B h k p) = Cert.Spec.proj (rowE x0 x1 B) (wOf x4) k (Cert.Spec.col h p) := by
  rw [val_main_v15_apply, show idx_main_v15 (ix4 B h k p) = ix4 B k h p from idx_transpose B h k p,
    val_main_v14_apply, show idx_main_v14 (ix4 B k h p) = ix3 B k (Cert.Spec.col h p) from idx_reshape B k h p,
    ref_proj13]

/-! ## The scores -/

/-- The query operand's index in term `p` of the lane contraction: query `q`, lane `p` of head `h`. -/
theorem lidx_lane (B : Fin 2048) (h : Fin 8) (q k p : Fin 64) :
    lidx_main_v16 (ix4 B h q k) p = ix4 B h q p :=
  funext fun a => Fin.ext (by match a with | ⟨0, _⟩ => rfl | ⟨1, _⟩ => rfl | ⟨2, _⟩ => rfl | ⟨3, _⟩ => rfl)

/-- The key operand's index in term `p` of the lane contraction: key `k`, lane `p` of head `h`. -/
theorem ridx_lane (B : Fin 2048) (h : Fin 8) (q k p : Fin 64) :
    ridx_main_v16 (ix4 B h q k) p = ix4 B h k p :=
  funext fun a => Fin.ext (by match a with | ⟨0, _⟩ => rfl | ⟨1, _⟩ => rfl | ⟨2, _⟩ => rfl | ⟨3, _⟩ => rfl)

/-- Head `h`'s score of query `q` against key `k`: the inner product of the two projections over the lanes. -/
theorem ref_scores (x0 : C2048x64) (x1 : CTab) (x2 x3 : CW) (B : Fin 2048) (h : Fin 8) (q k : Fin 64) :
    val_main_v16 (F := Ideal) x0 x1 x2 x3 (ix4 B h q k) = Cert.Spec.scores (rowE x0 x1 B) (wOf x2) (wOf x3) h q k := by
  rw [val_main_v16_apply]
  unfold Cert.Spec.scores
  refine Finset.sum_congr rfl fun p _ => ?_
  rw [lidx_lane, ridx_lane, ref_projQ, ref_projK]

end Cert.ReferenceIdeal.RefValue

end
-- ==== Proof.RefAttn.lean ====
/-
  The attention stage of the reference program on one batch row, read at an index.

  The scores form a [2048, 8, 64 (query), 64 (key)] array. For each key the reference takes the largest score over
  the queries, subtracts it, exponentiates, divides by the sum over the queries, pairs the weights with the value
  projections over the keys, lays the heads side by side (column h * 64 + p), adds the residual projection and
  clips at zero. Given that the scores, the value projections and the residual projections are the specification's
  at every index of the row, the clipped sum is the specification's multi.
-/
import proofs.«404584_j62156766707848_3_alg».proof.Proof.Gen.ReferenceIdeal.Read
import proofs.«404584_j62156766707848_3_alg».proof.Proof.Spec
import proofs.«404584_j62156766707848_3_alg».proof.Proof.RefDefs
import Idealize.ShloMosaic.PureOps.Reduce
import Idealize.ShloMosaic.PureOps.Ideal.Laws
import Idealize.ShloMosaic.Lib.ValueIdx
import Mathlib.Data.Finset.Fold

noncomputable section

namespace Cert.ReferenceIdeal.RefValue

open Cert.ReferenceIdeal Cert.ReferenceIdeal.Gen Cert.ReferenceIdeal.Read Idealize.ShloMosaic Idealize.ShloMosaic.ValueIdx

/-! ## Index equations -/

/-- The source index over (B, h, k) with query coordinate q inserted on axis 2 is (B, h, q, k). -/
theorem lift_q (hr : S2048x8x64x64.Reduces [2] S2048x8x64) (B : Fin 2048) (h : Fin 8) (k : Fin 64)
    (q : Fin (S2048x8x64x64.size 2)) : hr.lift (ix3 B h k) q = ix4 B h (⟨q.val, q.isLt⟩ : Fin 64) k :=
  funext fun a => Fin.ext (by
    match a with
    | ⟨0, _⟩ => rfl
    | ⟨1, _⟩ => rfl
    | ⟨2, _⟩ => rfl
    | ⟨3, _⟩ => rfl)

/-- From the initial value, the largest entry over the query axis, at (B, h, k), of an array of the scores' shape. -/
theorem fold_q (y : FVec Ideal S2048x8x64x64 .f32) (B : Fin 2048) (h : Fin 8) (k : Fin 64) :
    Host.reduce FloatOps.maximumf y (val_main_cst (F := Ideal)) reducesTo_S2048x8x64x64_S2048x8x64_d2 h_S_ (ix3 B h k)
      = (Finset.univ : Finset (Fin 64)).fold max (Ideal.ofBits .f32 0xFF800000#32) (fun q => y (ix4 B h q k)) := by
  have hr : S2048x8x64x64.Reduces [2] S2048x8x64 := by decide
  rw [Host.reduce_eq_fold_single FloatOps.maximumf y _ reducesTo_S2048x8x64x64_S2048x8x64_d2 hr h_S_]
  have hf : (y ∘ hr.lift (ix3 B h k)) = fun q : Fin 64 => y (ix4 B h q k) :=
    funext fun q => congrArg y (lift_q hr B h k q)
  exact congrArg (fun f => Finset.fold max (Ideal.ofBits .f32 0xFF800000#32) f (Finset.univ : Finset (Fin 64))) hf

/-- Broadcasting a [2048, 8, 64] array along a new query axis: entry (B, h, q, k) reads entry (B, h, k). -/
theorem idx_bcast_max (B : Fin 2048) (h : Fin 8) (q k : Fin 64) :
    idx_main_v20 (idx_main_v21 (ix4 B h q k)) = ix3 B h k :=
  funext fun a => Fin.ext (by match a with | ⟨0, _⟩ => rfl | ⟨1, _⟩ => rfl | ⟨2, _⟩ => rfl)

theorem idx_bcast_sum (B : Fin 2048) (h : Fin 8) (q k : Fin 64) :
    idx_main_v25 (idx_main_v26 (ix4 B h q k)) = ix3 B h k :=
  funext fun a => Fin.ext (by match a with | ⟨0, _⟩ => rfl | ⟨1, _⟩ => rfl | ⟨2, _⟩ => rfl)

/-- The sum over the query axis: term q of entry (B, h, k) is entry (B, h, q, k). -/
theorem idx_sum_q (B : Fin 2048) (h : Fin 8) (k q : Fin 64) :
    idx_main_v24 (ix3 B h k) q = ix4 B h q k :=
  funext fun a => Fin.ext (by match a with | ⟨0, _⟩ => rfl | ⟨1, _⟩ => rfl | ⟨2, _⟩ => rfl | ⟨3, _⟩ => rfl)

/-- The weighted sum over the keys: term k of entry (B, h, q, p) pairs weight (B, h, q, k) with value (B, h, k, p). -/
theorem lidx_av (B : Fin 2048) (h : Fin 8) (q p k : Fin 64) :
    lidx_main_v28 (ix4 B h q p) k = ix4 B h q k :=
  funext fun a => Fin.ext (by match a with | ⟨0, _⟩ => rfl | ⟨1, _⟩ => rfl | ⟨2, _⟩ => rfl | ⟨3, _⟩ => rfl)

theorem ridx_av (B : Fin 2048) (h : Fin 8) (q p k : Fin 64) :
    ridx_main_v28 (ix4 B h q p) k = ix4 B h k p :=
  funext fun a => Fin.ext (by match a with | ⟨0, _⟩ => rfl | ⟨1, _⟩ => rfl | ⟨2, _⟩ => rfl | ⟨3, _⟩ => rfl)

/-- Heads side by side: column h * 64 + p of feature f reads head h, query f, lane p. -/
theorem idx_heads (B : Fin 2048) (f : Fin 64) (h : Fin 8) (p : Fin 64) :
    idx_main_v29 (idx_main_v30 (ix3 B f (Cert.Spec.col h p))) = ix4 B h f p := by
  have hB := B.isLt; have hf := f.isLt; have hh := h.isLt; have hp := p.isLt
  exact funext fun a => Fin.ext (by
    match a with
    | ⟨0, _⟩ => show ((B.val * 64 + f.val) * 512 + (h.val * 64 + p.val)) / 32768 = B.val; omega
    | ⟨1, _⟩ => show ((B.val * 64 + f.val) * 512 + (h.val * 64 + p.val)) / 64 % 8 = h.val; omega
    | ⟨2, _⟩ => show ((B.val * 64 + f.val) * 512 + (h.val * 64 + p.val)) / 512 % 64 = f.val; omega
    | ⟨3, _⟩ => show ((B.val * 64 + f.val) * 512 + (h.val * 64 + p.val)) % 64 = p.val; omega)

/-! ## The stages -/

section

variable (x0 : C2048x64) (x1 : CTab) (x2 x3 x4 x5 : CW) (B : Fin 2048)

/-- The largest score over the queries, as the fold from the initial value. -/
theorem ref_fold (h : Fin 8) (k : Fin 64) :
    val_main_v17 (F := Ideal) x0 x1 x2 x3 (ix3 B h k)
      = (Finset.univ : Finset (Fin 64)).fold max (Ideal.ofBits .f32 0xFF800000#32)
          (fun q => val_main_v16 (F := Ideal) x0 x1 x2 x3 (ix4 B h q k)) := by
  unfold val_main_v17
  exact fold_q (val_main_v16 (F := Ideal) x0 x1 x2 x3) B h k

/-- Taking the larger of the initial value and the fold changes nothing: the fold is at least its initial value. -/
theorem ref_mx
    (hS : ∀ (h : Fin 8) (q k : Fin 64), val_main_v16 (F := Ideal) x0 x1 x2 x3 (ix4 B h q k) = Cert.Spec.scores (rowE x0 x1 B) (wOf x2) (wOf x3) h q k)
    (h : Fin 8) (k : Fin 64) :
    val_main_v19 (F := Ideal) x0 x1 x2 x3 (ix3 B h k) = Cert.Spec.mx (rowE x0 x1 B) (wOf x2) (wOf x3) h k := by
  rw [val_main_v19_apply, val_main_v18_apply, val_main_cst_1_apply, ref_fold]
  simp only [Ideal.maximumf_def, Ideal.ofBits_def]
  rw [max_eq_right ((Finset.le_fold_max _).2 (Or.inl le_rfl))]
  unfold Cert.Spec.mx Cert.Spec.negInf
  exact congrArg (fun f => Finset.fold max (Ideal.ofBits .f32 0xFF800000#32) f (Finset.univ : Finset (Fin 64)))
    (funext fun q => hS h q k)

/-- The shifted exponential. -/
theorem ref_pexp
    (hS : ∀ (h : Fin 8) (q k : Fin 64), val_main_v16 (F := Ideal) x0 x1 x2 x3 (ix4 B h q k) = Cert.Spec.scores (rowE x0 x1 B) (wOf x2) (wOf x3) h q k)
    (h : Fin 8) (q k : Fin 64) :
    val_main_v23 (F := Ideal) x0 x1 x2 x3 (ix4 B h q k) = Cert.Spec.pexp (rowE x0 x1 B) (wOf x2) (wOf x3) h q k := by
  rw [val_main_v23_apply, val_main_v22_apply, val_main_v21_apply, val_main_v20_apply, idx_bcast_max,
    ref_mx x0 x1 x2 x3 B hS, hS]
  simp only [Ideal.hostUnary_exp_def, Ideal.subf_def]
  rfl

/-- The denominator: the initial value is zero, so the sum over the queries is all there is. -/
theorem ref_den
    (hS : ∀ (h : Fin 8) (q k : Fin 64), val_main_v16 (F := Ideal) x0 x1 x2 x3 (ix4 B h q k) = Cert.Spec.scores (rowE x0 x1 B) (wOf x2) (wOf x3) h q k)
    (h : Fin 8) (k : Fin 64) :
    val_main_v24 (F := Ideal) x0 x1 x2 x3 (ix3 B h k) = Cert.Spec.den (rowE x0 x1 B) (wOf x2) (wOf x3) h k := by
  rw [val_main_v24_apply, val_main_cst_2_apply]
  simp only [Ideal.ofBits_def, Ideal.ofBits_zero_f32, zero_add]
  unfold Cert.Spec.den
  exact Finset.sum_congr rfl fun q _ => by rw [idx_sum_q, ref_pexp x0 x1 x2 x3 B hS]

/-- The attention weight. -/
theorem ref_att
    (hS : ∀ (h : Fin 8) (q k : Fin 64), val_main_v16 (F := Ideal) x0 x1 x2 x3 (ix4 B h q k) = Cert.Spec.scores (rowE x0 x1 B) (wOf x2) (wOf x3) h q k)
    (h : Fin 8) (q k : Fin 64) :
    val_main_v27 (F := Ideal) x0 x1 x2 x3 (ix4 B h q k) = Cert.Spec.att (rowE x0 x1 B) (wOf x2) (wOf x3) h q k := by
  rw [val_main_v27_apply, val_main_v26_apply, val_main_v25_apply, idx_bcast_sum,
    ref_den x0 x1 x2 x3 B hS, ref_pexp x0 x1 x2 x3 B hS]
  simp only [Ideal.hostDivf_def]
  rfl

/-- The attention output: the weights paired with the value projections over the keys. -/
theorem ref_av
    (hS : ∀ (h : Fin 8) (q k : Fin 64), val_main_v16 (F := Ideal) x0 x1 x2 x3 (ix4 B h q k) = Cert.Spec.scores (rowE x0 x1 B) (wOf x2) (wOf x3) h q k)
    (hV : ∀ (h : Fin 8) (k p : Fin 64), val_main_v15 (F := Ideal) x0 x1 x4 (ix4 B h k p) = Cert.Spec.proj (rowE x0 x1 B) (wOf x4) k (Cert.Spec.col h p))
    (h : Fin 8) (q p : Fin 64) :
    val_main_v28 (F := Ideal) x0 x1 x2 x3 x4 (ix4 B h q p) = Cert.Spec.av (rowE x0 x1 B) (wOf x2) (wOf x3) (wOf x4) h q p := by
  rw [val_main_v28_apply]
  unfold Cert.Spec.av
  exact Finset.sum_congr rfl fun k _ => by rw [lidx_av, ridx_av, ref_att x0 x1 x2 x3 B hS, hV]

/-- Attention output plus residual, clipped at zero. -/
theorem ref_multi
    (hS : ∀ (h : Fin 8) (q k : Fin 64), val_main_v16 (F := Ideal) x0 x1 x2 x3 (ix4 B h q k) = Cert.Spec.scores (rowE x0 x1 B) (wOf x2) (wOf x3) h q k)
    (hV : ∀ (h : Fin 8) (k p : Fin 64), val_main_v15 (F := Ideal) x0 x1 x4 (ix4 B h k p) = Cert.Spec.proj (rowE x0 x1 B) (wOf x4) k (Cert.Spec.col h p))
    (hR : ∀ (f : Fin 64) (j : Fin 512), val_main_v31 (F := Ideal) x0 x1 x5 (ix3 B f j) = Cert.Spec.proj (rowE x0 x1 B) (wOf x5) f j)
    (f : Fin 64) (h : Fin 8) (p : Fin 64) :
    val_main_v33 (F := Ideal) x0 x1 x2 x3 x4 x5 (ix3 B f (Cert.Spec.col h p)) = Cert.Spec.multi (rowE x0 x1 B) (wOf x2) (wOf x3) (wOf x4) (wOf x5) f h p := by
  rw [val_main_v33_apply, val_main_v32_apply, val_main_v30_apply, val_main_v29_apply, idx_heads,
    ref_av x0 x1 x2 x3 x4 B hS hV, hR, val_main_call0_v0_apply, val_main_call0_cst_apply]
  simp only [Ideal.maximumf_def, Ideal.addf_def, Ideal.ofBits_def, Ideal.ofBits_zero_f32]
  rfl

end

end Cert.ReferenceIdeal.RefValue

end
-- ==== Proof.RefTail.lean ====
/-
  The last stage of the reference program, for one batch row. The row's 64 × 512 block of clipped attention outputs is
  read in row-major order as a vector of length 32768 (flat position j is feature j / 512, column j % 512), paired
  with the output weights and summed; the bias is added; and 1 / (1 + exp (−y)) is taken of the result y, which is
  the logistic function of y by its definition over the extended reals.
-/
import proofs.«404584_j62156766707848_3_alg».proof.Proof.Gen.ReferenceIdeal.Read
import proofs.«404584_j62156766707848_3_alg».proof.Proof.Spec
import proofs.«404584_j62156766707848_3_alg».proof.Proof.RefDefs
import Idealize.ShloMosaic.Lib.ValueIdx
import Idealize.ShloMosaic.PureOps.Ideal

noncomputable section

namespace Cert.ReferenceIdeal.RefValue

open Cert.ReferenceIdeal Cert.ReferenceIdeal.Gen Cert.ReferenceIdeal.Read Idealize.ShloMosaic Idealize.ShloMosaic.ValueIdx

/-- The f32 pattern with sign 0, biased exponent 127 and fraction 0 denotes the real number 1:
    (2 ^ 23 + 0) * 2 ^ (127 − 127 − 23) = 1. -/
theorem tail_ofBits_one : Ideal.ofBits .f32 0x3F800000#32 = 1 := by
  show Ideal.ieee 8 23 (0x3F800000#32 : BitVec 32) = 1
  unfold Ideal.ieee
  have hs : ((0x3F800000#32 : BitVec 32).extractLsb' (8 + 23) 1 == 1#1) = false := by decide
  have he : ((0x3F800000#32 : BitVec 32).extractLsb' 23 8).toNat = 127 := by decide
  have hf : ((0x3F800000#32 : BitVec 32).extractLsb' 0 23).toNat = 0 := by decide
  simp only [hs, he, hf]
  norm_num

/-- Lane j % 64 of head j % 512 / 64 is column j % 512. -/
theorem tail_col_of_flat (j : Fin 32768) :
    (Cert.Spec.col (Cert.Spec.hOf j) (Cert.Spec.pOf j)).val = j.val % 512 := by
  simp only [Cert.Spec.col, Cert.Spec.hOf, Cert.Spec.pOf]; omega

/-- Flat position k of row B in the 2048 × 32768 view is entry (B, k / 512, k % 512) of the 2048 × 64 × 512 array:
    B * 32768 + k = (B * 64 + k / 512) * 512 + k % 512. -/
theorem tail_idx_flat (B : Fin 2048) (k : Fin 32768) :
    idx_main_v34 (lidx_main_v35 (ix2 B 0) k)
      = ix3 B (Cert.Spec.fOf k) (Cert.Spec.col (Cert.Spec.hOf k) (Cert.Spec.pOf k)) := by
  have hB : B.val < 2048 := B.isLt
  have hk : k.val < 32768 := k.isLt
  funext a
  apply Fin.ext
  match a with
  | ⟨0, _⟩ => show (B.val * 32768 + k.val) / 32768 = B.val; omega
  | ⟨1, _⟩ => show (B.val * 32768 + k.val) / 512 % 64 = k.val / 512; omega
  | ⟨2, _⟩ =>
    show (B.val * 32768 + k.val) % 512 = (Cert.Spec.col (Cert.Spec.hOf k) (Cert.Spec.pOf k)).val
    rw [tail_col_of_flat]; omega

/-- The output weight paired with flat position k is entry (k, 0) of the 32768 × 1 array. -/
theorem tail_ridx_flat (B : Fin 2048) (k : Fin 32768) : ridx_main_v35 (ix2 B 0) k = ix2 k 0 := by
  funext a
  apply Fin.ext
  match a with
  | ⟨0, _⟩ => rfl
  | ⟨1, _⟩ => rfl

/-- The bias broadcast to row B is the bias array's one entry. -/
theorem tail_idx_bias (B : Fin 2048) : idx_main_v36 (idx_main_v37 (ix2 B 0)) = ix1 0 := by
  funext a
  apply Fin.ext
  match a with
  | ⟨0, _⟩ => rfl

/-- Row B of the product with the output weights: the sum over the flat position of the clipped attention output at
    its feature, head and lane times the output weight there. -/
theorem tail_v35_row (x0 : C2048x64) (x1 : CTab) (x2 x3 x4 x5 : CW) (x6 : COw) (B : Fin 2048)
    (hM : ∀ (f : Fin 64) (h : Fin 8) (p : Fin 64),
      val_main_v33 (F := Ideal) x0 x1 x2 x3 x4 x5 (ix3 B f (Cert.Spec.col h p))
        = Cert.Spec.multi (rowE x0 x1 B) (wOf x2) (wOf x3) (wOf x4) (wOf x5) f h p) :
    val_main_v35 (F := Ideal) x0 x1 x2 x3 x4 x5 x6 (ix2 B 0)
      = ∑ j : Fin 32768, Cert.Spec.multi (rowE x0 x1 B) (wOf x2) (wOf x3) (wOf x4) (wOf x5)
          (Cert.Spec.fOf j) (Cert.Spec.hOf j) (Cert.Spec.pOf j) * owOf x6 j := by
  rw [val_main_v35_apply]
  refine Finset.sum_congr rfl fun k _ => ?_
  rw [val_main_v34_apply, tail_idx_flat, hM, tail_ridx_flat]
  rfl

/-- The reference's result for row B is the logistic function of the weighted sum plus the bias. -/
theorem ref_tail (x0 : C2048x64) (x1 : CTab) (x2 x3 x4 x5 : CW) (x6 : COw) (x7 : COb) (B : Fin 2048)
    (hM : ∀ (f : Fin 64) (h : Fin 8) (p : Fin 64),
      val_main_v33 (F := Ideal) x0 x1 x2 x3 x4 x5 (ix3 B f (Cert.Spec.col h p))
        = Cert.Spec.multi (rowE x0 x1 B) (wOf x2) (wOf x3) (wOf x4) (wOf x5) f h p) :
    val_main_v44 (F := Ideal) x0 x1 x2 x3 x4 x5 x6 x7 (ix2 B 0)
      = Cert.Spec.yRef (rowE x0 x1 B) (wOf x2) (wOf x3) (wOf x4) (wOf x5) (owOf x6) (x7 (ix1 0)) := by
  rw [val_main_v44_apply, val_main_v43_apply, val_main_cst_4_apply, val_main_v42_apply, val_main_v41_apply,
    val_main_cst_3_apply, val_main_v40_apply, val_main_v39_apply, val_main_v38_apply, val_main_v37_apply,
    val_main_v36_apply, tail_idx_bias, tail_v35_row x0 x1 x2 x3 x4 x5 x6 B hM]
  simp only [Ideal.hostDivf_def, Ideal.addf_def, Ideal.hostUnary_exp_def, Ideal.hostNegf_def, Ideal.negf_def,
    Ideal.ofBits_def, tail_ofBits_one]
  rfl

end Cert.ReferenceIdeal.RefValue

end
-- ==== Proof.RefAll.lean ====
/-
  The reference program's result at batch row `B` is the specification's `yRef` of that row: the projections and
  scores, then the softmax over the query axis, the weighted values, the residual and the clipping, then the final
  contraction with the output weights, the bias and the logistic function, read one after another.
-/
import proofs.«404584_j62156766707848_3_alg».proof.Proof.RefProj
import proofs.«404584_j62156766707848_3_alg».proof.Proof.RefAttn
import proofs.«404584_j62156766707848_3_alg».proof.Proof.RefTail

noncomputable section

namespace Cert.ReferenceIdeal.RefValue

open Cert.ReferenceIdeal Cert.ReferenceIdeal.Gen Cert.ReferenceIdeal.Read Idealize.ShloMosaic Idealize.ShloMosaic.ValueIdx

theorem ref_is_spec (x0 : C2048x64) (x1 : CTab) (x2 x3 x4 x5 : CW) (x6 : COw) (x7 : COb) (B : Fin 2048) :
    val_main_v44 (F := Ideal) x0 x1 x2 x3 x4 x5 x6 x7 (ix2 B 0)
      = Cert.Spec.yRef (rowE x0 x1 B) (wOf x2) (wOf x3) (wOf x4) (wOf x5) (owOf x6) (x7 (ix1 0)) :=
  ref_tail x0 x1 x2 x3 x4 x5 x6 x7 B fun f h p =>
    ref_multi x0 x1 x2 x3 x4 x5 B (fun h q k => ref_scores x0 x1 x2 x3 B h q k) (fun h k p => ref_projV x0 x1 x4 B h k p)
      (fun f j => ref_projR x0 x1 x5 B f j) f h p

end Cert.ReferenceIdeal.RefValue

end
-- ==== Proof.SpecAlgebra.lean ====
/-
  The two forms of the row's result agree.

  Both are the logistic function of (a sum + the bias). The reference sums the 32768 products over the flat
  index at once; the kernel sums them head pair by head pair, and within a pair over the feature and the 128
  lanes of the two heads side by side. The map (pair k, feature f, lane l) ↦ f * 512 + (2 k + l / 64) * 64 + l % 64
  is a bijection of Fin 4 × Fin 64 × Fin 128 with Fin 32768, whose inverse sends j to
  (j % 512 / 128, j / 512, j % 128); the feature, head and lane read back from the image are f, 2 k + l / 64 and
  l % 64. Addition of extended reals is commutative and associative with neutral 0, so the sum may be regrouped
  along this bijection.
-/
import proofs.«404584_j62156766707848_3_alg».proof.Proof.Spec
import Mathlib.Algebra.BigOperators.Fin
import Mathlib.Algebra.BigOperators.Group.Finset.Basic
import Mathlib.Data.Fintype.BigOperators

noncomputable section

namespace Cert.Spec

open Idealize.ShloMosaic

/-- The feature read back from the flat position of (f, h, p) is f. -/
theorem fOf_flat (f : Fin 64) (h : Fin 8) (p : Fin 64) : fOf (flat f h p) = f := by
  refine Fin.ext ?_
  simp only [fOf, flat]
  omega

/-- The head read back from the flat position of (f, h, p) is h. -/
theorem hOf_flat (f : Fin 64) (h : Fin 8) (p : Fin 64) : hOf (flat f h p) = h := by
  refine Fin.ext ?_
  simp only [hOf, flat]
  omega

/-- The lane read back from the flat position of (f, h, p) is p. -/
theorem pOf_flat (f : Fin 64) (h : Fin 8) (p : Fin 64) : pOf (flat f h p) = p := by
  refine Fin.ext ?_
  simp only [pOf, flat]
  omega

/-- (pair k, feature f, lane l) ↦ the flat position of (f, head 2 k + l / 64, lane l % 64), a bijection with
    inverse j ↦ (j % 512 / 128, j / 512, j % 128). -/
def regroup : Fin 4 × Fin 64 × Fin 128 ≃ Fin 32768 where
  toFun t := flat t.2.1 (headOf t.1 t.2.2) (laneOf t.2.2)
  invFun j := (⟨j.val % 512 / 128, by omega⟩, ⟨j.val / 512, by omega⟩, ⟨j.val % 128, by omega⟩)
  left_inv := by
    rintro ⟨k, f, l⟩
    refine Prod.ext (Fin.ext ?_) (Prod.ext (Fin.ext ?_) (Fin.ext ?_))
    · simp only [flat, headOf, laneOf]
      omega
    · simp only [flat, headOf, laneOf]
      omega
    · simp only [flat, headOf, laneOf]
      omega
  right_inv := by
    intro j
    refine Fin.ext ?_
    simp only [flat, headOf, laneOf]
    omega

theorem regroup_apply (k : Fin 4) (f : Fin 64) (l : Fin 128) :
    regroup (k, f, l) = flat f (headOf k l) (laneOf l) := rfl

/-- A sum over the flat index, in any commutative monoid, taken pair by pair, then over the feature, then over
    the 128 lanes of the pair. -/
theorem sum_regroup {M : Type*} [AddCommMonoid M] (F : Fin 32768 → M) :
    ∑ j : Fin 32768, F j
      = ∑ k : Fin 4, ∑ f : Fin 64, ∑ l : Fin 128, F (flat f (headOf k l) (laneOf l)) := by
  rw [← Equiv.sum_comp regroup F, Fintype.sum_prod_type]
  refine Fintype.sum_congr _ _ fun k => ?_
  rw [Fintype.sum_prod_type]
  refine Fintype.sum_congr _ _ fun f => ?_
  refine Fintype.sum_congr _ _ fun l => ?_
  rw [regroup_apply]

/-- The sum over the flat index is the four head-pair shares accumulated from zero. -/
theorem sum_flat_eq_contribs (e : Fin 64 → Fin 128 → EReal) (Wq Wk Wv Wr : Fin 128 → Fin 512 → EReal)
    (ow : Fin 32768 → EReal) :
    ((((0 + contrib e Wq Wk Wv Wr ow 0) + contrib e Wq Wk Wv Wr ow 1) + contrib e Wq Wk Wv Wr ow 2)
        + contrib e Wq Wk Wv Wr ow 3)
      = ∑ j : Fin 32768, multi e Wq Wk Wv Wr (fOf j) (hOf j) (pOf j) * ow j := by
  rw [sum_regroup (fun j => multi e Wq Wk Wv Wr (fOf j) (hOf j) (pOf j) * ow j), Fin.sum_univ_four, zero_add]
  simp only [fOf_flat, hOf_flat, pOf_flat]
  rfl

theorem yKer_eq_yRef (e : Fin 64 → Fin 128 → EReal) (Wq Wk Wv Wr : Fin 128 → Fin 512 → EReal)
    (ow : Fin 32768 → EReal) (ob : EReal) :
    yKer e Wq Wk Wv Wr ow ob = yRef e Wq Wk Wv Wr ow ob := by
  unfold yKer yRef
  rw [sum_flat_eq_contribs]

end Cert.Spec

end
-- ==== Proof.Bridge.lean ====
/-
  The two results are one array. The reference's result at batch row `B` is the specification's `yRef` of that row of
  the gathered embeddings and of the weight arrays; the kernel's is the specification's `yKer` of the same row and of
  the arrays its host operations build — whose column blocks are the same weight matrices, whose per-head output
  weights are the same column read by flat position, and whose gathered rows are the reference's (the narrowing of the
  table to half width being the identity on extended reals). `yKer = yRef` is the regrouping of a finite sum.
-/
import proofs.«404584_j62156766707848_3_alg».proof.Proof.KIValue
import proofs.«404584_j62156766707848_3_alg».proof.Proof.KHost
import proofs.«404584_j62156766707848_3_alg».proof.Proof.RefAll
import proofs.«404584_j62156766707848_3_alg».proof.Proof.SpecAlgebra

set_option maxRecDepth 16384

noncomputable section

namespace Cert.Proof.Bridge

open Idealize.ShloMosaic Idealize.ShloMosaic.TcCoe Idealize.ShloMosaic.ValueIdx Idealize.SL.Sem
open Cert.KernelIdeal.Hand Cert.KernelIdeal.KValue Cert.ReferenceIdeal.RefValue

theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v44 m' c = G m c := by
  rw [Cert.ReferenceIdeal.Read.val_main_v44_eq, h0, h1, h2, h3, h4, h5, h6, h7]
  funext i
  obtain ⟨B, q, rfl⟩ : ∃ (B : Fin 2048) (q : Fin 1), i = ix2 B q := ⟨i 0, i 1, eq_ix2 i⟩
  have hq : q = 0 := Fin.ext (by have := q.isLt; omega)
  subst hq
  rw [ref_is_spec, ← Cert.Spec.yKer_eq_yRef]
  unfold G
  rw [V_v20_q m c, V_v20_k m c, V_v20_v m c, V_v20_r m c, V_v22_ow m c, V_v23_ob m c]
  have e7 : (fun (f : Fin 64) (d : Fin 128) => (V m c Cert.KernelIdeal.main_v7 : FVec Ideal Cert.KernelIdeal.S2048x64x128 .bf16)
      (ix3 (⟨((ix2 B (0 : Fin 1) : Cert.KernelIdeal.S2048x1.Idx) 0).val, ((ix2 B (0 : Fin 1) : Cert.KernelIdeal.S2048x1.Idx) 0).isLt⟩ : Fin 2048) f d))
      = rowE (m ((c.tc : Thread Cert.KernelIdeal.nD Cert.KernelIdeal.τ).loc Cert.KernelIdeal.main_arg0)) (m ((c.tc : Thread Cert.KernelIdeal.nD Cert.KernelIdeal.τ).loc Cert.KernelIdeal.main_arg1)) B :=
    funext fun f => funext fun d => V_v7_apply m c B f d
  rw [e7]
  rfl

end Cert.Proof.Bridge

end
-- ==== Proof.lean ====
/-
  The certificate's five claims. The three frames: the kernel as printed and its idealization each run their host
  operations and then the one pipelined region, whose body is run once per grid point through its four-trip loop, and
  every argument array ends unchanged; the reference, a straight line of host operations, runs to its composed term.
  The idealization rewrote nothing, so it is the kernel's own text read over the extended reals. And over the extended
  reals the idealized kernel and the reference end with equal results: both compute, for every batch row, the logistic
  of the clipped attention-plus-residual values contracted with the output weights plus the bias; the kernel takes that
  contraction head pair by head pair, the reference all at once, and a finite sum may be regrouped freely.
-/
import proofs.«404584_j62156766707848_3_alg».proof.Defs
import proofs.«404584_j62156766707848_3_alg».proof.Proof.Gen.Kernel
import proofs.«404584_j62156766707848_3_alg».proof.Proof.Gen.KernelIdeal
import proofs.«404584_j62156766707848_3_alg».proof.Proof.Gen.ReferenceIdeal
import proofs.«404584_j62156766707848_3_alg».proof.Proof.Gen.Pre_finite_inputs
import proofs.«404584_j62156766707848_3_alg».proof.Proof.Gen.ReferenceIdeal.Run
import proofs.«404584_j62156766707848_3_alg».proof.Proof.Gen.ReferenceIdeal.Read
import proofs.«404584_j62156766707848_3_alg».proof.Proof.KFrame
import proofs.«404584_j62156766707848_3_alg».proof.Proof.KIFrame
import proofs.«404584_j62156766707848_3_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.G m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  exact Cert.Proof.Bridge.result_eq m m' c a0 a1 a2 a3 a4 a5 a6 a7

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
